-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S2000000 : Shape := ⟨1, ![2000000]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : IVec S2000000 32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  main_v3
-- ==== Kernel.lean ====
abbrev S2000000x16 : Shape := ⟨2, ![2000000, 16]⟩
abbrev S2000000 : Shape := ⟨1, ![2000000]⟩
abbrev S2000000x1 : Shape := ⟨2, ![2000000, 1]⟩
abbrev S2x64x17 : Shape := ⟨3, ![2, 64, 17]⟩
abbrev S8000x16 : Shape := ⟨2, ![8000, 16]⟩
abbrev S8000x1 : Shape := ⟨2, ![8000, 1]⟩
abbrev S1x64x17 : Shape := ⟨3, ![1, 64, 17]⟩
abbrev S64x17 : Shape := ⟨2, ![64, 17]⟩
abbrev S1x64 : Shape := ⟨2, ![1, 64]⟩
abbrev S8000x64 : Shape := ⟨2, ![8000, 64]⟩
abbrev S8000x17 : Shape := ⟨2, ![8000, 17]⟩
abbrev S_ : Shape := ⟨0, ![]⟩
abbrev S64x16 : Shape := ⟨2, ![64, 16]⟩
abbrev S64x1 : Shape := ⟨2, ![64, 1]⟩
abbrev S2x64x1 : Shape := ⟨3, ![2, 64, 1]⟩
abbrev S1x64x1 : Shape := ⟨3, ![1, 64, 1]⟩
abbrev S8000 : Shape := ⟨1, ![8000]⟩
abbrev S64 : Shape := ⟨1, ![64]⟩
abbrev S64x1x16 : Shape := ⟨3, ![64, 1, 16]⟩
abbrev S1x64x16 : Shape := ⟨3, ![1, 64, 16]⟩
abbrev S64x64x16 : Shape := ⟨3, ![64, 64, 16]⟩
abbrev S64x64 : Shape := ⟨2, ![64, 64]⟩

abbrev nBuf : Space → Nat
  | .hbm => 73
  | .vmem => 13
  | .smem => 0
  | _ => 0

abbrev bufTy : (tb : Table) → Fin (tcTables nBuf tb) → BufTy
  | .hbm, ⟨0, _⟩ => ⟨S2000000x16, .f32⟩
  | .hbm, ⟨1, _⟩ => ⟨S2000000, .i32⟩
  | .hbm, ⟨2, _⟩ => ⟨S2000000x1, .i32⟩
  | .hbm, ⟨3, _⟩ => ⟨S2x64x17, .f32⟩
  | .hbm, ⟨4, _⟩ => ⟨S_, .f32⟩
  | .hbm, ⟨5, _⟩ => ⟨S64x17, .f32⟩
  | .hbm, ⟨6, _⟩ => ⟨S64x16, .f32⟩
  | .hbm, ⟨7, _⟩ => ⟨S64x1, .f32⟩
  | .hbm, ⟨8, _⟩ => ⟨S64x16, .f32⟩
  | .hbm, ⟨9, _⟩ => ⟨S64x16, .f32⟩
  | .hbm, ⟨10, _⟩ => ⟨S2x64x1, .f32⟩
  | .hbm, ⟨11, _⟩ => ⟨S_, .f32⟩
  | .hbm, ⟨12, _⟩ => ⟨S64x1, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x1x16, .f32⟩
  | .hbm, ⟨21, _⟩ => ⟨S1x64x16, .f32⟩
  | .hbm, ⟨22, _⟩ => ⟨S64x64x16, .f32⟩
  | .hbm, ⟨23, _⟩ => ⟨S64x64x16, .f32⟩
  | .hbm, ⟨24, _⟩ => ⟨S64x64x16, .f32⟩
  | .hbm, ⟨25, _⟩ => ⟨S_, .f32⟩
  | .hbm, ⟨26, _⟩ => ⟨S64x64x16, .f32⟩
  | .hbm, ⟨27, _⟩ => ⟨S64x64x16, .f32⟩
  | .hbm, ⟨28, _⟩ => ⟨S64x64x16, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S64x64, .i1⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64x16, .f32⟩
  | .hbm, ⟨56, _⟩ => ⟨S64x16, .f32⟩
  | .hbm, ⟨57, _⟩ => ⟨S64x16, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S8000x16, .f32⟩
  | .local _ .vmem, ⟨1, _⟩ => ⟨S8000x16, .f32⟩
  | .local _ .vmem, ⟨2, _⟩ => ⟨S8000x1, .i32⟩
  | .local _ .vmem, ⟨3, _⟩ => ⟨S8000x1, .i32⟩
  | .local _ .vmem, ⟨4, _⟩ => ⟨S1x64x17, .f32⟩
  | .local _ .vmem, ⟨5, _⟩ => ⟨S1x64x17, .f32⟩
  | .local _ .vmem, ⟨6, _⟩ => ⟨S8000x16, .f32⟩
  | .local _ .vmem, ⟨7, _⟩ => ⟨S8000x16, .f32⟩
  | .local _ .vmem, ⟨8, _⟩ => ⟨S8000x1, .i32⟩
  | .local _ .vmem, ⟨9, _⟩ => ⟨S8000x1, .i32⟩
  | .local _ .vmem, ⟨10, _⟩ => ⟨S64x16, .f32⟩
  | .local _ .vmem, ⟨11, _⟩ => ⟨S1x64x1, .f32⟩
  | .local _ .vmem, ⟨12, _⟩ => ⟨S1x64x1, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 125], ![false, false]⟩

def cc1_transform_0 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2000000_S2000000x1 : S2000000.ShapeCasts S2000000x1
  inb_S1x64x17_S1x64x17_0_0_0 : ∀ a, (![0, 0, 0] : Fin 3 → Nat) a + S1x64x17.size a ≤ S1x64x17.size a
  h_S1x64x17 : 0 < S1x64x17.numel
  shapeCasts_S1x64x17_S64x17 : S1x64x17.ShapeCasts S64x17
  shapeCasts_S64x17_S1x64x17 : S64x17.ShapeCasts S1x64x17
  inb_S8000x16_S8000x16_0_0 : ∀ a, (![0, 0] : Fin 2 → Nat) a + S8000x16.size a ≤ S8000x16.size a
  h_S8000x16 : 0 < S8000x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S1x64_d1_w32 : S1x64.Iotas .tc 32 [1]
  broadcasts_S8000x1_S8000x64 : S8000x1.Broadcasts S8000x64
  broadcasts_S1x64_S8000x64 : S1x64.Broadcasts S8000x64
  natLt_1_32 : 1 < 32
  bitsLt_bf16_f32 : FTy.bits .bf16 < FTy.bits .f32
  concatenates_S8000x16_S8000x1_S8000x17_d1 : Shape.Concatenates [S8000x16, S8000x1] S8000x17 1
  reducesTo_S2x64x17_S64x17_d0 : S2x64x17.ReducesTo [0] S64x17
  h_S_ : 0 < S_.numel
  slices_S64x17_S64x16_0_0 : S64x17.Slices ![0, 0] S64x16
  slices_S64x17_S64x1_0_16 : S64x17.Slices ![0, 16] S64x1
  bcast_S64x1_S64x16_0_1 : S64x1.BroadcastsInDim S64x16 (![0, 1] : Fin 2 → Fin S64x16.rank)
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S64x16_S64x16_0_0 : ∀ a, (![0, 0] : Fin 2 → Nat) a + S64x16.size a ≤ S64x16.size a
  h_S64x16 : 0 < S64x16.numel
  shapeCasts_S64x16_S64x16 : S64x16.ShapeCasts S64x16
  reduces_S8000x16_S8000 : S8000x16.Reduces [1] S8000
  shapeCasts_S8000_S8000x1 : S8000.ShapeCasts S8000x1
  reducesTo_S2x64x1_S64x1_d0 : S2x64x1.ReducesTo [0] S64x1
  shapeCasts_S64x1_S64 : S64x1.ShapeCasts S64
  reducesTo_S64_S_d0 : S64.ReducesTo [0] S_
  bcast_S64x16_S64x1x16_0_2 : S64x16.BroadcastsInDim S64x1x16 (![0, 2] : Fin 2 → Fin S64x1x16.rank)
  bcast_S64x16_S1x64x16_1_2 : S64x16.BroadcastsInDim S1x64x16 (![1, 2] : Fin 2 → Fin S1x64x16.rank)
  bcast_S64x1x16_S64x64x16_0_1_2 : S64x1x16.BroadcastsInDim S64x64x16 (![0, 1, 2] : Fin 3 → Fin S64x64x16.rank)
  bcast_S1x64x16_S64x64x16_0_1_2 : S1x64x16.BroadcastsInDim S64x64x16 (![0, 1, 2] : Fin 3 → Fin S64x64x16.rank)
  bcast_S_S64x64x16 : S_.BroadcastsInDim S64x64x16 (![] : Fin 0 → Fin S64x64x16.rank)
  reducesTo_S64x64x16_S64x64_d2 : S64x64x16.ReducesTo [2] S64x64
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S64_d1 : S64x16.ReducesTo [1] S64
  dot_S8000x64_S8000x17_S64x17_0_0_1_1_n_n_wf : DotDims.WF S8000x64 S8000x17 S64x17 [0] [0] [1] [1] [] []
  dot_S8000x64_S64x16_S8000x16_1_0_0_1_n_n_wf : DotDims.WF S8000x64 S64x16 S8000x16 [1] [0] [0] [1] [] []
  dot_S8000x64_S8000x1_S64x1_0_0_1_1_n_n_wf : DotDims.WF S8000x64 S8000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S2000000x16.size a
  hwx0_0 : ∀ i : grid0.Coords, EltTy.bits .f32 = 32 ∨ (Rect.block (s := S2000000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S2000000x1.size a
  hwx0_1 : ∀ i : grid0.Coords, EltTy.bits .i32 = 32 ∨ (Rect.block (s := S2000000x1) S8000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x17.size a ≤ S2x64x17.size a
  hwx0_2 : ∀ i : grid0.Coords, EltTy.bits .f32 = 32 ∨ (Rect.block (s := S2x64x17) S1x64x17.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S2000000x16.size a
  hwx1_0 : ∀ i : grid1.Coords, EltTy.bits .f32 = 32 ∨ (Rect.block (s := S2000000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S2000000x1.size a
  hwx1_1 : ∀ i : grid1.Coords, EltTy.bits .i32 = 32 ∨ (Rect.block (s := S2000000x1) S8000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1.size a ≤ S2x64x1.size a
  hwx1_3 : ∀ i : grid1.Coords, EltTy.bits .f32 = 32 ∨ (Rect.block (s := S2x64x1) S1x64x1.size (cc1_transform_3 i) (hinb1_3 i)).WholeWords (EltTy.packing .f32)

variable [Facts₀]

def dot_S8000x64_S8000x17_S64x17_0_0_1_1_n_n : DotDims S8000x64 S8000x17 S64x17 where
  lhsContracting := [0]
  rhsContracting := [0]
  lhsNonContracting := [1]
  rhsNonContracting := [1]
  lhsBatch := []
  rhsBatch := []
  wf := dot_S8000x64_S8000x17_S64x17_0_0_1_1_n_n_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S8000x64_S8000x1_S64x1_0_0_1_1_n_n : DotDims S8000x64 S8000x1 S64x1 where
  lhsContracting := [0]
  rhsContracting := [0]
  lhsNonContracting := [1]
  rhsNonContracting := [1]
  lhsBatch := []
  rhsBatch := []
  wf := dot_S8000x64_S8000x1_S64x1_0_0_1_1_n_n_wf

abbrev win0_0 : Pipeline.Window sig grid0 :=
  Pipeline.Window.ofSpec (Memref.whole main_arg0) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x17.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2000000x16 : Shape := ⟨2, ![2000000, 16]⟩
abbrev S2000000 : Shape := ⟨1, ![2000000]⟩
abbrev S_ : Shape := ⟨0, ![]⟩
abbrev S64 : Shape := ⟨1, ![64]⟩
abbrev S2000000x1 : Shape := ⟨2, ![2000000, 1]⟩
abbrev S64x16 : Shape := ⟨2, ![64, 16]⟩
abbrev S64x1 : Shape := ⟨2, ![64, 1]⟩
abbrev S64x1x16 : Shape := ⟨3, ![64, 1, 16]⟩
abbrev S1x64x16 : Shape := ⟨3, ![1, 64, 16]⟩
abbrev S64x64x16 : Shape := ⟨3, ![64, 64, 16]⟩
abbrev S64x64 : Shape := ⟨2, ![64, 64]⟩

abbrev nBuf : Space → Nat
  | .hbm => 101
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000, .i32⟩
  | .hbm, ⟨2, _⟩ => ⟨S_, .f32⟩
  | .hbm, ⟨3, _⟩ => ⟨S2000000, .f32⟩
  | .hbm, ⟨4, _⟩ => ⟨S_, .f32⟩
  | .hbm, ⟨5, _⟩ => ⟨S64, .f32⟩
  | .hbm, ⟨6, _⟩ => ⟨S2000000x1, .i32⟩
  | .hbm, ⟨7, _⟩ => ⟨S64, .f32⟩
  | .hbm, ⟨8, _⟩ => ⟨S_, .f32⟩
  | .hbm, ⟨9, _⟩ => ⟨S64x16, .f32⟩
  | .hbm, ⟨10, _⟩ => ⟨S2000000x1, .i32⟩
  | .hbm, ⟨11, _⟩ => ⟨S64x16, .f32⟩
  | .hbm, ⟨12, _⟩ => ⟨S64x1, .f32⟩
  | .hbm, ⟨13, _⟩ => ⟨S64x16, .f32⟩
  | .hbm, ⟨14, _⟩ => ⟨S64x16, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x16, .f32⟩
  | .hbm, ⟨24, _⟩ => ⟨S2000000x16, .f32⟩
  | .hbm, ⟨25, _⟩ => ⟨S_, .f32⟩
  | .hbm, ⟨26, _⟩ => ⟨S2000000x16, .f32⟩
  | .hbm, ⟨27, _⟩ => ⟨S2000000x16, .f32⟩
  | .hbm, ⟨28, _⟩ => ⟨S2000000x16, .f32⟩
  | .hbm, ⟨29, _⟩ => ⟨S_, .f32⟩
  | .hbm, ⟨30, _⟩ => ⟨S2000000, .f32⟩
  | .hbm, ⟨31, _⟩ => ⟨S2000000, .f32⟩
  | .hbm, ⟨32, _⟩ => ⟨S_, .f32⟩
  | .hbm, ⟨33, _⟩ => ⟨S2000000, .f32⟩
  | .hbm, ⟨34, _⟩ => ⟨S2000000, .f32⟩
  | .hbm, ⟨35, _⟩ => ⟨S_, .f32⟩
  | .hbm, ⟨36, _⟩ => ⟨S2000000, .f32⟩
  | .hbm, ⟨37, _⟩ => ⟨S2000000, .f32⟩
  | .hbm, ⟨38, _⟩ => ⟨S2000000, .f32⟩
  | .hbm, ⟨39, _⟩ => ⟨S_, .f32⟩
  | .hbm, ⟨40, _⟩ => ⟨S64, .f32⟩
  | .hbm, ⟨41, _⟩ => ⟨S2000000x1, .i32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64x1x16, .f32⟩
  | .hbm, ⟨49, _⟩ => ⟨S1x64x16, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S_, .f32⟩
  | .hbm, ⟨54, _⟩ => ⟨S64x64x16, .f32⟩
  | .hbm, ⟨55, _⟩ => ⟨S64x64x16, .f32⟩
  | .hbm, ⟨56, _⟩ => ⟨S64x64x16, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64x64, .f32⟩
  | .hbm, ⟨62, _⟩ => ⟨S64x64, .f32⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .i32⟩
  | .hbm, ⟨68, _⟩ => ⟨S64x64, .i32⟩
  | .hbm, ⟨69, _⟩ => ⟨S_, .i32⟩
  | .hbm, ⟨70, _⟩ => ⟨S64x64, .i32⟩
  | .hbm, ⟨71, _⟩ => ⟨S64x64, .i32⟩
  | .hbm, ⟨72, _⟩ => ⟨S64x64, .i1⟩
  | .hbm, ⟨73, _⟩ => ⟨S64x64, .f32⟩
  | .hbm, ⟨74, _⟩ => ⟨S_, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S64x16, .f32⟩
  | .hbm, ⟨84, _⟩ => ⟨S64x16, .f32⟩
  | .hbm, ⟨85, _⟩ => ⟨S64x16, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_call1_v0 : Ref sig .tc := ⟨.hbm, 56, rfl⟩
abbrev main_call1_cst : Ref sig .tc := ⟨.hbm, 57, rfl⟩
abbrev main_call1_v1 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_cst_16 : Ref sig .tc := ⟨.hbm, 82, rfl⟩
abbrev main_v56 : Ref sig .tc := ⟨.hbm, 83, rfl⟩
abbrev main_v57 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_cst_18 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_cst_20 : Ref sig .tc := ⟨.hbm, 95, rfl⟩
abbrev main_v62 : Ref sig .tc := ⟨.hbm, 96, rfl⟩
abbrev main_v63 : Ref sig .tc := ⟨.hbm, 97, rfl⟩
abbrev main_cst_21 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S64 : S_.BroadcastsInDim S64 (![] : Fin 0 → Fin S64.rank)
  bcast_S2000000_S2000000x1_0 : S2000000.BroadcastsInDim S2000000x1 (![0] : Fin 1 → Fin S2000000x1.rank)
  bcast_S_S64x16 : S_.BroadcastsInDim S64x16 (![] : Fin 0 → Fin S64x16.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S_S2000000x16 : S_.BroadcastsInDim S2000000x16 (![] : Fin 0 → Fin S2000000x16.rank)
  reducesTo_S2000000x16_S2000000_d1 : S2000000x16.ReducesTo [1] S2000000
  h_S_ : 0 < S_.numel
  reducesTo_S64_S_d0 : S64.ReducesTo [0] S_
  bcast_S64x16_S64x1x16_0_2 : S64x16.BroadcastsInDim S64x1x16 (![0, 2] : Fin 2 → Fin S64x1x16.rank)
  bcast_S64x16_S1x64x16_1_2 : S64x16.BroadcastsInDim S1x64x16 (![1, 2] : Fin 2 → Fin S1x64x16.rank)
  bcast_S64x1x16_S64x64x16_0_1_2 : S64x1x16.BroadcastsInDim S64x64x16 (![0, 1, 2] : Fin 3 → Fin S64x64x16.rank)
  bcast_S1x64x16_S64x64x16_0_1_2 : S1x64x16.BroadcastsInDim S64x64x16 (![0, 1, 2] : Fin 3 → Fin S64x64x16.rank)
  bcast_S_S64x64x16 : S_.BroadcastsInDim S64x64x16 (![] : Fin 0 → Fin S64x64x16.rank)
  reducesTo_S64x64x16_S64x64_d2 : S64x64x16.ReducesTo [2] S64x64
  bcast_S_S64x64 : S_.BroadcastsInDim S64x64 (![] : Fin 0 → Fin S64x64.rank)
  reducesTo_S64x64_S_d0_1 : S64x64.ReducesTo [0, 1] S_
  reducesTo_S64x16_S64_d1 : S64x16.ReducesTo [1] S64
  scatter_S64_S2000000x1_S2000000_n_0_0_1_wf : ScatterDims.WF S64 S2000000x1 S2000000 [] [0] [0] 1
  scatter_S64x16_S2000000x1_S2000000x16_1_0_0_1_wf : ScatterDims.WF S64x16 S2000000x1 S2000000x16 [1] [0] [0] 1
  gather_S64x16_S2000000x1_S2000000x16_1_0_n_n_0_1_116_wf : GatherDims.WF S64x16 S2000000x1 S2000000x16 [1] [0] [] [0] [] 1 ![1, 16]

variable [Facts₀]

def scatter_S64_S2000000x1_S2000000_n_0_0_1 : ScatterDims S64 S2000000x1 S2000000 where
  updateWindowDims := []
  insertedWindowDims := [0]
  scatterDimsToOperandDims := [0]
  indexVectorDim := 1
  wf := scatter_S64_S2000000x1_S2000000_n_0_0_1_wf
def scatter_S64x16_S2000000x1_S2000000x16_1_0_0_1 : ScatterDims S64x16 S2000000x1 S2000000x16 where
  updateWindowDims := [1]
  insertedWindowDims := [0]
  scatterDimsToOperandDims := [0]
  indexVectorDim := 1
  wf := scatter_S64x16_S2000000x1_S2000000x16_1_0_0_1_wf
def gather_S64x16_S2000000x1_S2000000x16_1_0_n_n_0_1_116 : GatherDims S64x16 S2000000x1 S2000000x16 where
  offsetDims := [1]
  collapsedSliceDims := [0]
  operandBatchingDims := []
  startIndicesBatchingDims := []
  startIndexMap := [0]
  indexVectorDim := 1
  sliceSizes := ![1, 16]
  wf := gather_S64x16_S2000000x1_S2000000x16_1_0_n_n_0_1_116_wf

class Facts : Prop extends Facts₀ where

variable [Facts]
-- ==== Proof.KernHost.lean ====
/-
  The idealized kernel's buffers between its two pallas_calls and after them, read back to the launch memory.

  @main is: reshape the labels to a column; the first call (segment sums and counts, one block per core); sum the two
  cores' blocks, split the sums from the counts, divide (the centres); the second call (hinge sums per cluster, one block
  per core); then host arithmetic on the centres, the counts and the hinge sums down to the scalar loss. Each host stretch
  is a fold of its operations over the contents it is entered with, each call leaves its result array at what its
  write-backs leave and every other buffer alone. So: the label column both calls read is the reshaped label argument, the
  feature array they read is the feature argument, the table the second call reads is the centres computed from the first
  call's result, and the final scalar is the host arithmetic applied to the centres, the counts and the second call's
  result.
-/
import proofs.«420134_j12584254177316_3_alg».proof.Proof.FrameValue
import Idealize.ShloMosaic.Lib.StableHlo.Run
import Idealize.ShloMosaic.Lib.Pipeline.Value
import Idealize.ShloMosaic.PureOps.Ideal
import Idealize.ShloMosaic.PureOps.Ideal.Laws

set_option maxRecDepth 16384

noncomputable section

namespace Cert.KernelIdeal.KH

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first call's result array after the call. -/
abbrev A1 (c : Dev nD) : FVec Ideal S2x64x17 .f32 := (dat0 (V1 m ρ) c).arrAt 2 cfg0.N

/-- The two cores' blocks summed: per cluster the sixteen feature sums and the count. -/
def sc (c : Dev nD) : FVec Ideal S64x17 .f32 :=
  Host.reduceAdd (A1 m ρ c) (constant S_ .f32 0x00000000#32) reducesTo_S2x64x17_S64x17_d0 h_S_

/-- The counts, as a column. -/
def cnt (c : Dev nD) : FVec Ideal S64x1 .f32 := extractStridedSlice S64x1 ![0, 16] (sc m ρ c) slices_S64x17_S64x1_0_16

/-- The centres: each feature sum over its cluster's count. -/
def mu (c : Dev nD) : FVec Ideal S64x16 .f32 :=
  Host.divf (extractStridedSlice S64x16 ![0, 0] (sc m ρ c) slices_S64x17_S64x16_0_0)
    (broadcastInDim S64x16 ![0, 1] bcast_S64x1_S64x16_0_1 (cnt m ρ c))

/-- The second call's result array after the call. -/
abbrev A7 (c : Dev nD) : FVec Ideal S2x64x1 .f32 := (dat1 (V3 m ρ) c).arrAt 3 cfg1.N

/-- The label column the first call reads: the label argument reshaped. -/
theorem V1_v0 (c : Dev nD) :
    V1 m ρ c main_v0 = shapeCast S2000000x1 (m ((c : Thread nD τ).loc main_arg1)) shapeCasts_S2000000_S2000000x1 := by
  show StableHlo.after hostOps0 (W0 m ρ c) (Proc.devRef .tc main_v0) = _
  after_results
  rfl

/-- The feature array the first call reads: the feature argument. -/
theorem V1_arg0 (c : Dev nD) : V1 m ρ c main_arg0 = m ((c : Thread nD τ).loc main_arg0) := by
  show StableHlo.after hostOps0 (W0 m ρ c) (Proc.devRef .tc main_arg0) = _
  after_results

/-- The first call's result buffer holds its result array. -/
theorem W2_v1 (c : Dev nD) : W2 m ρ c (Proc.devRef .tc main_v1) = A1 m ρ c := W2_arr m ρ c 2

/-- The centres' buffer when the second call is entered. -/
theorem V3_v6 (c : Dev nD) : V3 m ρ c main_v6 = mu m ρ c := by
  show StableHlo.after hostOps1 (W2 m ρ c) (Proc.devRef .tc main_v6) = _
  after_results
  rw [W2_v1]
  rfl

/-- The counts' buffer when the second call is entered. -/
theorem V3_v4 (c : Dev nD) : V3 m ρ c main_v4 = cnt m ρ c := by
  show StableHlo.after hostOps1 (W2 m ρ c) (Proc.devRef .tc main_v4) = _
  after_results
  rw [W2_v1]
  rfl

/-- The label column the second call reads is the one the first read. -/
theorem V3_v0 (c : Dev nD) : V3 m ρ c main_v0 = V1 m ρ c main_v0 := by
  show StableHlo.after hostOps1 (W2 m ρ c) (Proc.devRef .tc main_v0) = _
  after_results
  exact ((W2_arr m ρ c 1).trans (((dat0 (V1 m ρ) c).arrAt_in 1 rfl _).trans (A_eq0 (V1 m ρ) c 1)))

/-- The feature array the second call reads is the feature argument. -/
theorem V3_arg0 (c : Dev nD) : V3 m ρ c main_arg0 = m ((c : Thread nD τ).loc main_arg0) := by
  show StableHlo.after hostOps1 (W2 m ρ c) (Proc.devRef .tc main_arg0) = _
  after_results
  exact ((W2_arr m ρ c 0).trans (((dat0 (V1 m ρ) c).arrAt_in 0 rfl _).trans (A_eq0 (V1 m ρ) c 0))).trans (V1_arg0 m ρ c)

/-- After the second call: its result buffer holds its result array, -/
theorem W4_v7 (c : Dev nD) : W4 m ρ c (Proc.devRef .tc main_v7) = A7 m ρ c := W4_arr m ρ c 3

/-- the centres are as it found them, -/
theorem W4_v6 (c : Dev nD) : W4 m ρ c (Proc.devRef .tc main_v6) = mu m ρ c :=
  ((W4_arr m ρ c 2).trans (((dat1 (V3 m ρ) c).arrAt_in 2 rfl _).trans (A_eq1 (V3 m ρ) c 2))).trans (V3_v6 m ρ c)

/-- and so are the counts. -/
theorem W4_v4 (c : Dev nD) : W4 m ρ c (Proc.devRef .tc main_v4) = cnt m ρ c :=
  (W4_of_ne m ρ c main_v4 (by decide)).trans (V3_v4 m ρ c)

end Cert.KernelIdeal.KH

end
-- ==== Proof.Hinge.lean ====
/-
  The mathematics shared by the two programs, free of either.

  A point's label is a 32-bit word; cluster c's one-hot entry at that word is one where the word is c and zero elsewhere.
  A feature row extended by the constant one (so that one product with the one-hot column sums the features and counts
  the points at once). The squared hinge of a point's distance to a centre: max(‖x − μ + ε‖ − ½, 0)², the norm the
  square root of the sum of squares over the sixteen coordinates. A label array and a feature array read at a natural
  row number (zero past the end, which no sum below reaches).
-/
import Idealize.ShloMosaic.PureOps.Ideal
import Idealize.ShloMosaic.Lib.ValueIdx

noncomputable section

namespace NbrLoss

open Idealize.ShloMosaic Idealize.ShloMosaic.ValueIdx

/-- Cluster `c`'s one-hot entry at the label word `w`. -/
def oh (w : BitVec 32) (c : Fin 64) : EReal := if w = BitVec.ofNat 32 c.val then 1 else 0

/-- A feature row with the constant one appended as coordinate 16. -/
def fe (x : Fin 16 → EReal) (d : Fin 17) : EReal := if h : d.val < 16 then x ⟨d.val, h⟩ else Ideal.ofBits .f32 0x3F800000#32

/-- The hinge of the distance from `x` to the centre `mu`, before squaring. -/
def hinge (mu x : Fin 16 → EReal) : EReal :=
  max (Ideal.sqrt (∑ d : Fin 16, (x d - mu d + Ideal.ofBits .f32 0x322BCC77#32) * (x d - mu d + Ideal.ofBits .f32 0x322BCC77#32))
    - Ideal.ofBits .f32 0x3F000000#32) 0

/-- Its square. -/
def h2 (mu x : Fin 16 → EReal) : EReal := hinge mu x * hinge mu x

/-- The label word of row `n` of a [2000000, 1] label array. -/
def labAt (L : (⟨2, ![2000000, 1]⟩ : Shape).Idx → BitVec 32) (n : ℕ) : BitVec 32 :=
  if h : n < 2000000 then L (ix2 ⟨n, h⟩ 0) else 0

/-- Coordinate `e` of row `n` of a [2000000, 16] feature array. -/
def featAt (X : (⟨2, ![2000000, 16]⟩ : Shape).Idx → EReal) (n : ℕ) (e : Fin 16) : EReal :=
  if h : n < 2000000 then X (ix2 ⟨n, h⟩ e) else 0

/-- The centre the one-hot row of the label word `w` selects from the table `mu`: the sum over the clusters of the
    one-hot entry times the cluster's centre. -/
def pick (mu : (⟨2, ![64, 16]⟩ : Shape).Idx → EReal) (w : BitVec 32) (e : Fin 16) : EReal :=
  ∑ c' : Fin 64, oh w c' * mu (ix2 c' e)

end NbrLoss

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Payload.lean ====
/-
  The two kernels' stored values at an entry, at the ideal values.

  The segment-sum body stores, into its [1, 64, 17] block, the block's running contents plus the product of the
  transposed one-hot matrix of the tile's 8000 labels with the tile's feature rows extended by a one: entry (c, d) gains
  the sum over the tile's rows t of (label t is c) · (row t's coordinate d, or one at d = 16). The hinge body stores the
  running contents plus the same product with the rows' squared hinges in place of the extended rows, each row's centre
  picked from the table of centres by its own one-hot row. A change of float format is the identity, a product into the
  zero accumulator has no accumulator term, and the zero word is the extended real zero.
-/
import proofs.«420134_j12584254177316_3_alg».proof.Proof.Gen.KernelIdeal.Skeleton
import proofs.«420134_j12584254177316_3_alg».proof.Proof.Hinge
import proofs.«420134_j12584254177316_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen NbrLoss

/-! ## Words, layout operations and products read at an entry -/

/-- The widened comparison bit of two words, read as a signed integer and then as an extended real, is one where the
    words agree and zero where they differ. -/
private theorem onehot_word (a b : BitVec 32) :
    FloatOps.sitofp (F := Ideal) .f32 ((IntOp.cmpi .eq a b).setWidth 32) = if a = b then 1 else 0 := by
  by_cases h : a = b
  · subst h
    have h1 : IntOp.cmpi .eq a a = 1#1 := by simp [IntOp.cmpi]
    rw [h1, if_pos rfl]
    show ((((1#1 : BitVec 1).setWidth 32).toInt : ℝ) : EReal) = 1
    have h2 : ((1#1 : BitVec 1).setWidth 32).toInt = 1 := by decide
    rw [h2]; simp
  · have h0 : (a == b) = false := beq_eq_false_iff_ne.mpr h
    have h1 : IntOp.cmpi .eq a b = 0#1 := by
      show BitVec.ofBool (a == b) = 0#1
      rw [h0]; rfl
    rw [h1, if_neg h]
    show ((((0#1 : BitVec 1).setWidth 32).toInt : ℝ) : EReal) = 0
    have h2 : ((0#1 : BitVec 1).setWidth 32).toInt = 0 := by decide
    rw [h2]; simp

/-- An `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix of a column of label words: entry (t, c) is one where row t's word is c. The column is broadcast
    along the clusters, the clusters' numbers (a lane iota) along the rows; the comparison bit is widened and read as
    a number. -/
private theorem onehot_core (v : Vec Ideal S8000x1 .i32) (t : Fin 8000) (c : Fin 64) :
    (sitofp (F := Ideal) .f32 (extui 32 (cmpi .eq
        (broadcastTo S8000x64 v broadcasts_S8000x1_S8000x64)
        (broadcastTo S8000x64 (iota .tc S1x64 32 [1] iota_S1x64_d1_w32) broadcasts_S1x64_S8000x64)) natLt_1_32)
      : FVec Ideal S8000x64 .f32) (ix2 t c) = oh (v (ix2 t 0)) c := by
  rw [sitofp_apply, extui_apply]
  show FloatOps.sitofp (F := Ideal) .f32 ((IntOp.cmpi .eq _ _).setWidth 32) = _
  rw [onehot_word, broadcastTo_a1_ab_apply, broadcastTo_1b_ab_apply, iota_single_apply]
  rfl

/-- The same for the tile's labels as the bodies build it: a cast of the labels to their own shape and a change of
    format around it, both the identity. -/
private theorem onehot_entry (x1 : Vec Ideal S8000x1 .i32) (t : Fin 8000) (c : Fin 64) :
    (truncf .bf16 (sitofp (F := Ideal) .f32 (extui 32 (cmpi .eq
        (broadcastTo S8000x64 (shapeCast S8000x1 x1 shapeCasts_S8000x1_S8000x1) broadcasts_S8000x1_S8000x64)
        (broadcastTo S8000x64 (iota .tc S1x64 32 [1] iota_S1x64_d1_w32) broadcasts_S1x64_S8000x64)) natLt_1_32)) bitsLt_bf16_f32
      : FVec Ideal S8000x64 .bf16) (ix2 t c) = oh (x1 (ix2 t 0)) c := by
  rw [truncf_apply, onehot_core, shapeCast_self]

/-- The tile's feature rows extended by a one: entry (t, d) is row t's coordinate d below 16, and the constant one at
    d = 16. The change of format is the identity. -/
private theorem fe_entry (x0 : Vec Ideal S8000x16 .f32) (t : Fin 8000) (d : Fin 17) :
    (truncf .bf16 (concatenate S8000x17 1 [⟨S8000x16, x0⟩,
        ⟨S8000x1, broadcast S8000x1 (Scalar.ofBits (F := Ideal) .f32 0x3F800000#32)⟩]
        concatenates_S8000x16_S8000x1_S8000x17_d1 : FVec Ideal S8000x17 .f32) bitsLt_bf16_f32
      : FVec Ideal S8000x17 .bf16) (ix2 t d) = fe (fun e => x0 (ix2 t e)) d := by
  rw [truncf_apply]
  unfold fe
  split
  · next hd =>
    exact concatenate_pair_apply_left (t := S8000x17) (s₁ := S8000x16) (s₂ := S8000x1) (1 : Fin 2) x0
      (broadcast S8000x1 (Scalar.ofBits (F := Ideal) .f32 0x3F800000#32))
      concatenates_S8000x16_S8000x1_S8000x17_d1 (ix2 t d) rfl
      (ix2 t ⟨d.val, hd⟩) (fun b => match b with | ⟨0, _⟩ => rfl | ⟨1, _⟩ => rfl)
  · next hd =>
    refine (concatenate_pair_apply_right (t := S8000x17) (s₁ := S8000x16) (s₂ := S8000x1) (1 : Fin 2) x0
      (broadcast S8000x1 (Scalar.ofBits (F := Ideal) .f32 0x3F800000#32))
      concatenates_S8000x16_S8000x1_S8000x17_d1 (ix2 t d) rfl rfl
      (ix2 t (0 : Fin 1)) (fun b hb => ?_) ?_).trans ?_
    · match b with
      | ⟨0, _⟩ => rfl
      | ⟨1, _⟩ => exact absurd rfl hb
    · show 0 + 16 = d.val
      have := d.isLt; omega
    · rfl

/-- The dimension numbers of a product that contracts the FIRST axis of both operands ("tc,td->cd"), over any proof
    of their well-formedness. -/
private abbrev ttDims {T C D : Nat} (wf : DotDims.WF ⟨2, ![T, C]⟩ ⟨2, ![T, D]⟩ ⟨2, ![C, D]⟩ [0] [0] [1] [1] [] []) :
    DotDims ⟨2, ![T, C]⟩ ⟨2, ![T, D]⟩ ⟨2, ![C, D]⟩ where
  lhsContracting := [0]
  rhsContracting := [0]
  lhsNonContracting := [1]
  rhsNonContracting := [1]
  lhsBatch := []
  rhsBatch := []
  wf := wf

/-- The entry (c, d) of such a product accumulated into zero is `∑ t, A(t, c) · B(t, d)`. -/
private theorem matmul_tt_zero_apply {T C D : Nat} {φ₁ φ₂ : FTy}
    (wf : DotDims.WF ⟨2, ![T, C]⟩ ⟨2, ![T, D]⟩ ⟨2, ![C, D]⟩ [0] [0] [1] [1] [] [])
    (prec : Option ContractPrecision)
    (A : FVec Ideal ⟨2, ![T, C]⟩ φ₁) (B : FVec Ideal ⟨2, ![T, D]⟩ φ₂) (c : Fin C) (d : Fin D) :
    matmul (F := Ideal) (ttDims wf) prec A B (constant ⟨2, ![C, D]⟩ .f32 0x00000000#32) (ix2 c d)
      = ∑ t : Fin T, A (ix2 t c) * B (ix2 t d) := by
  show FloatOps.matmul _ prec A B _ (ix2 c d) = _
  rw [Ideal.matmul_constant_zero_apply, ← Equiv.sum_comp (contrEquiv1 (ttDims wf) T rfl rfl).symm]
  refine Finset.sum_congr rfl fun t _ => ?_
  -- the contraction index built from t has t on its one axis
  have ht := contrEquiv1_symm_val (ttDims wf) T rfl rfl t
  -- the left operand is read at (t, c): axis 0 is the contracted coordinate, axis 1 the output's row
  have hl : (ttDims wf).lhsIdx (ix2 c d) ((contrEquiv1 _ T rfl rfl).symm t) = ix2 t c := by
    funext ax; apply Fin.ext
    match ax with
    | ⟨0, _⟩ => exact ((ttDims wf).lhsIdx_val_of_single rfl (ix2 c d) _).trans ht
    | ⟨1, _⟩ => simp [DotDims.lhsIdx, ttDims]; rfl
  -- the right operand is read at (t, d)
  have hr : (ttDims wf).rhsIdx (ix2 c d) ((contrEquiv1 _ T rfl rfl).symm t) = ix2 t d := by
    funext ax; apply Fin.ext
    match ax with
    | ⟨0, _⟩ => exact ((ttDims wf).rhsIdx_val_of_single rfl (ix2 c d) _).trans ht
    | ⟨1, _⟩ => simp [DotDims.rhsIdx, ttDims]; rfl
  rw [hl, hr]

/-- An `[a]` vector cast to an `[a, 1]` column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A square root at an index is the square root of the element. -/
private theorem sqrt_apply {s : Shape} {φ : FTy} (x : FVec Ideal s φ) (i : s.Idx) : sqrt x i = Ideal.sqrt (x i) := rfl

/-- The sum over a row's sixteen coordinates: the lane reduction of an `[8000, 16]` block read at row `t`. -/
private theorem rowsum_entry (v : FVec Ideal S8000x16 .f32) (t : Fin 8000) :
    multiReduction (F := Ideal) .add [1] S8000 v 0x00000000#32 reduces_S8000x16_S8000 (.inl rfl) rfl (ix1 t)
      = ∑ k : Fin 16, v (ix2 t k) := by
  refine (Ideal.multiReduction_add_single v _ reduces_S8000x16_S8000 (.inl rfl) rfl (ix1 t)).trans ?_
  show ∑ k : Fin 16, v (reduces_S8000x16_S8000.lift (ix1 t) k) = _
  refine Finset.sum_congr rfl fun k _ => congrArg v (funext fun ax => ?_)
  match ax with
  | ⟨0, _⟩ => exact Fin.ext rfl
  | ⟨1, _⟩ => exact Fin.ext rfl

/-- The row-select product's record is the plain one. -/
private theorem dot_plain_eq : dot_S8000x64_S64x16_S8000x16_1_0_0_1_n_n = DotDims.plain 8000 64 16 := rfl

/-- The row-select product: row t of a one-hot matrix times the table of centres is the centre the row's label word
    picks. The table goes through a cast to its own shape and a change of format, both the identity. -/
private theorem centre_entry (O : FVec Ideal S8000x64 .bf16) (x2 : Vec Ideal S64x16 .f32) (w : BitVec 32) (t : Fin 8000)
    (k : Fin 16) (hO : ∀ c' : Fin 64, O (ix2 t c') = oh w c') :
    matmul (F := Ideal) dot_S8000x64_S64x16_S8000x16_1_0_0_1_n_n none O
        (truncf .bf16 (shapeCast S64x16 x2 shapeCasts_S64x16_S64x16) bitsLt_bf16_f32)
        (constant S8000x16 .f32 0x00000000#32) (ix2 t k)
      = pick x2 w k := by
  refine (PlainMatmul.matmul_zero_apply_of_eq _ dot_plain_eq none _ _ t k).trans ?_
  unfold pick
  refine Finset.sum_congr rfl fun c' _ => ?_
  rw [hO, truncf_apply, shapeCast_self]

/-! ## The four stored values -/

/-- The reset value of the segment-sum block is zero everywhere. -/
theorem pay0_zero (i : S1x64x17.Idx) : k0_pay1 (F := Ideal) i = 0 := by
  unfold k0_pay1
  show Ideal.ofBits .f32 0x00000000#32 = 0
  exact Ideal.ofBits_zero_f32

/-- The segment-sum body's stored value at entry (0, c, d): the running contents there plus the tile's one-hot
    product. -/
theorem pay0_acc (x0 : Vec Ideal S8000x16 .f32) (x1 : Vec Ideal S8000x1 .i32) (acc : Vec Ideal S1x64x17 .f32)
    (c : Fin 64) (d : Fin 17) :
    k0_pay2 (F := Ideal) x0 x1 acc (ix3 0 c d)
      = acc (ix3 0 c d) + ∑ t : Fin 8000, oh (x1 (ix2 t 0)) c * fe (fun e => x0 (ix2 t e)) d := by
  unfold k0_pay2
  dsimp only
  -- the stored block at (0, c, d) is the sum at (c, d) of the running contents and the product
  rw [shapeCast_ab_1ab_apply, addf_apply, shapeCast_1ab_ab_apply]
  refine congrArg (acc (ix3 0 c d) + ·) ?_
  -- the product into zero is the sum over the tile's rows, term by term the one-hot entry times the extended row
  refine (matmul_tt_zero_apply dot_S8000x64_S8000x17_S64x17_0_0_1_1_n_n_wf none _ _ c d).trans ?_
  refine Finset.sum_congr rfl fun t _ => ?_
  rw [onehot_entry, fe_entry]

/-- The reset value of the hinge block is zero everywhere. -/
theorem pay1_zero (i : S1x64x1.Idx) : k1_pay1 (F := Ideal) i = 0 := by
  unfold k1_pay1
  show Ideal.ofBits .f32 0x00000000#32 = 0
  exact Ideal.ofBits_zero_f32

/-- The hinge body's stored value at entry (0, c, 0): the running contents there plus the sum over the tile's rows of
    (label t is c) · the squared hinge of row t against the centre its own label picks from the table `x2`. -/
theorem pay1_acc (x0 : Vec Ideal S8000x16 .f32) (x1 : Vec Ideal S8000x1 .i32) (x2 : Vec Ideal S64x16 .f32)
    (acc : Vec Ideal S1x64x1 .f32) (c : Fin 64) :
    k1_pay2 (F := Ideal) x0 x1 x2 acc (ix3 0 c 0)
      = acc (ix3 0 c 0) + ∑ t : Fin 8000, oh (x1 (ix2 t 0)) c * h2 (pick x2 (x1 (ix2 t 0))) (fun e => x0 (ix2 t e)) := by
  unfold k1_pay2
  dsimp only
  -- the stored block at (0, c, 0) is the sum at (c, 0) of the running contents and the product
  rw [shapeCast_ab_1ab_apply, addf_apply, shapeCast_1ab_ab_apply]
  refine congrArg (acc (ix3 0 c 0) + ·) ?_
  -- the product into zero is the sum over the tile's rows of the one-hot entry times the row's squared hinge
  refine (matmul_tt_zero_apply dot_S8000x64_S8000x1_S64x1_0_0_1_1_n_n_wf none _ _ c 0).trans ?_
  refine Finset.sum_congr rfl fun t _ => ?_
  rw [onehot_entry]
  refine congrArg (oh (x1 (ix2 t 0)) c * ·) ?_
  -- the squared hinge of row t is the square of its hinge
  rw [truncf_apply, mulf_apply]
  refine congrArg (fun z => z * z) (?_ : _ = hinge (pick x2 (x1 (ix2 t 0))) (fun e => x0 (ix2 t e)))
  -- the hinge: the maximum with zero of the root of the row's sum of squares less one half
  rw [maximumf_apply, subf_apply, broadcast_apply, broadcast_apply, sqrt_apply, shapeCast_a_a1_apply, rowsum_entry]
  unfold hinge
  refine congrArg₂ max (congrArg (· - _) (congrArg Ideal.sqrt (Finset.sum_congr rfl fun k _ => ?_))) Ideal.ofBits_zero_f32
  -- coordinate k of the deviation: the row less the picked centre plus the small constant, squared
  rw [mulf_apply, addf_apply, subf_apply, broadcast_apply,
    centre_entry _ x2 (x1 (ix2 t 0)) t k (fun c' => onehot_entry x1 t c')]
  rfl

end Cert.KernelIdeal.Pay

end
-- ==== Proof.Region0.lean ====
/-
  What the first pallas_call leaves in its result array, at the ideal values and for any contents it is entered with.

  The grid is 2 × 125 points; point 125·j + s reads rows 8000·(125·j + s) … + 7999 of the features and of the labels and
  adds, into block j of the [2, 64, 17] result, the product of the tile's transposed one-hot matrix with its rows
  extended by a one; block j is reset at s = 0 and written back after s = 124. So entry (j, c, d) of the result array
  ends as the sum over s < 125 and t < 8000 of (label of row n is c) · (coordinate d of row n, or one at d = 16),
  n = 8000·(125·j + s) + t.
-/
import proofs.«420134_j12584254177316_3_alg».proof.Proof.Gen.KernelIdeal.Frame
import proofs.«420134_j12584254177316_3_alg».proof.Proof.Payload
import proofs.«420134_j12584254177316_3_alg».proof.Proof.Hinge
import Idealize.ShloMosaic.Lib.Pipeline.Value
import Idealize.ShloMosaic.Lib.ValueIdx
import Idealize.ShloMosaic.Lib.Tactic

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen NbrLoss

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- At a point that does not reset, the body leaves in the result block, which held `xo`, the stored value computed
    from the tile's feature rows `x0`, its labels `x1` and `xo`: its one store covers the block and its loads read the
    whole buffers. -/
private theorem out_B (c : Dev nD) (i : grid0.Coords) (a2 : Memref sig .tc .vmem S8000x16 .f32) (h2 : a2.IsWhole)
    (a3 : Memref sig .tc .vmem S8000x1 .i32) (h3 : a3.IsWhole) (a4 : Memref sig .tc .vmem S1x64x17 .f32) (h4 : a4.IsWhole)
    (hc : ¬cond0_0 i) (x0 : Vec F S8000x16 .f32) (x1 : Vec F S8000x1 .i32) (xo : Vec F S1x64x17 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero (S := S1x64x17) hz3]
  simp only [View.readAt_eq_ld, h2.read_unread, h3.read_unread, h4.read_unread, View.ld_unit_zero (S := S8000x16) hz2,
    View.ld_unit_zero (S := S8000x1) hz2, View.ld_unit_zero (S := S1x64x17) hz3]

/-- At a point that resets, the body first stores the reset value over the whole block and then the stored value
    computed from the tile and from that reset value read back: the later store covers the block. -/
private theorem out_A (c : Dev nD) (i : grid0.Coords) (a2 : Memref sig .tc .vmem S8000x16 .f32) (h2 : a2.IsWhole)
    (a3 : Memref sig .tc .vmem S8000x1 .i32) (h3 : a3.IsWhole) (a4 : Memref sig .tc .vmem S1x64x17 .f32) (h4 : a4.IsWhole)
    (hc : cond0_0 i) (x0 : Vec F S8000x16 .f32) (x1 : Vec F S8000x1 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x64x17) hz3, View.readCov_unit_zero (S := S1x64x17) _ hz3]
  simp only [View.readAt_eq_ld, h2.read_unread, h3.read_unread, View.ld_unit_zero (S := S8000x16) hz2,
    View.ld_unit_zero (S := S8000x1) hz2]
end Pieces

-- the buffer contents the region is entered with: any
variable (V : (c : Dev nD) → (b : Ref sig .tc) → Buf (Elt Ideal) ((c : Thread nD τ).loc b))

/-- The feature rows the point `t` reads: its block of the feature array, as a vector of the block's literal shape. -/
private abbrev xblk (c : Dev nD) (t : Fin cfg0.N) : Vec Ideal S8000x16 .f32 := iblk0 V c 0 t
/-- The labels the point `t` reads. -/
private abbrev lblk (c : Dev nD) (t : Fin cfg0.N) : Vec Ideal S8000x1 .i32 := iblk0 V c 1 t

/-- The index maps over the grid: at point `t` the two inputs read block `t` of their rows, the result block is
    block `t / 125` of the result's leading axis. -/
private theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 125 ∧ win0_2.index t (1 : Fin 3) = 0 ∧ win0_2.index t (2 : Fin 3) = 0 :=
  (by decide +kernel : ∀ t : Fin grid0.N, _)

/-- Row `u` of the label block of point `n` is row `8000 n + u` of the label array. -/
private theorem lblk_apply (c : Dev nD) (n : ℕ) (h : n < cfg0.N) (u : Fin 8000) :
    lblk V c ⟨n, h⟩ (ix2 u 0) = labAt (V c main_v0) (8000 * n + u.val) := by
  have hN : n < 250 := lt_of_lt_of_eq h (show cfg0.N = 250 from N_0)
  obtain ⟨-, -, e0, e1, -, -, -⟩ := idx_facts ⟨n, h⟩
  have hu : u.val < 8000 := u.isLt
  unfold labAt
  rw [dif_pos (by omega)]
  unfold lblk iblk0
  rw [View.read_apply]
  show V c main_v0 _ = V c main_v0 _
  congr 1
  funext a
  apply Fin.ext
  match a with
  | ⟨0, _⟩ => show win0_1.index ⟨n, h⟩ (0 : Fin 2) * 8000 + 1 * u.val = 8000 * n + u.val; rw [e0]; show n * 8000 + 1 * u.val = _; omega
  | ⟨1, _⟩ => show win0_1.index ⟨n, h⟩ (1 : Fin 2) * 1 + 1 * 0 = 0; rw [e1]

/-- Coordinate `e` of row `u` of the feature block of point `n` is that of row `8000 n + u` of the feature array. -/
private theorem xblk_apply (c : Dev nD) (n : ℕ) (h : n < cfg0.N) (u : Fin 8000) (e : Fin 16) :
    xblk V c ⟨n, h⟩ (ix2 u e) = featAt (V c main_arg0) (8000 * n + u.val) e := by
  have hN : n < 250 := lt_of_lt_of_eq h (show cfg0.N = 250 from N_0)
  obtain ⟨e0, e1, -, -, -, -, -⟩ := idx_facts ⟨n, h⟩
  have hu : u.val < 8000 := u.isLt
  unfold featAt
  rw [dif_pos (by omega)]
  unfold xblk iblk0
  rw [View.read_apply]
  show V c main_arg0 _ = V c main_arg0 _
  congr 1
  funext a
  apply Fin.ext
  match a with
  | ⟨0, _⟩ => show win0_0.index ⟨n, h⟩ (0 : Fin 2) * 8000 + 1 * u.val = 8000 * n + u.val; rw [e0]; show n * 8000 + 1 * u.val = _; omega
  | ⟨1, _⟩ => show win0_0.index ⟨n, h⟩ (1 : Fin 2) * 16 + 1 * e.val = e.val; rw [e1]; omega

/-- What a resetting point `n` leaves in the result block: the stored value over the reset value. -/
private def rst (c : Dev nD) (n : ℕ) (h : n < cfg0.N) : Vec Ideal S1x64x17 .f32 :=
  k0_pay2 (xblk V c ⟨n, h⟩) (lblk V c ⟨n, h⟩) (k0_pay1 (F := Ideal))
/-- What any other point `n` leaves there, over the contents `acc` the point before left. -/
private def stp (c : Dev nD) (n : ℕ) (h : n < cfg0.N) (acc : Vec Ideal S1x64x17 .f32) : Vec Ideal S1x64x17 .f32 :=
  k0_pay2 (xblk V c ⟨n, h⟩) (lblk V c ⟨n, h⟩) acc

private theorem outsAt_reset (c : Dev nD) (n : ℕ) (h : n < cfg0.N) (h0 : n % 125 = 0) : outsAt0 V c n h = rst V c n h :=
  (outsAt0_A V c ⟨n, h⟩ h0).trans
    (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (xblk V c ⟨n, h⟩) (lblk V c ⟨n, h⟩))

private theorem outsAt_step (c : Dev nD) (n : ℕ) (h : n + 1 < cfg0.N) (hB : ¬(n + 1) % 125 = 0) :
    outsAt0 V c (n + 1) h = stp V c (n + 1) h (outsAt0 V c n (Nat.lt_of_succ_lt h)) :=
  (outsAt0_B V c ⟨n + 1, h⟩ hB).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩)
      (hs0_2 ⟨n + 1, h⟩) (fun hh => hB ((hcond0_0 ⟨n + 1, h⟩).mp hh)) (xblk V c ⟨n + 1, h⟩) (lblk V c ⟨n + 1, h⟩)
      (outsAt0 V c n (Nat.lt_of_succ_lt h)))

/-- What point `n` adds to the block's entry `i = (0, cl, d)`: the sum over the tile's rows of (the row's label is `cl`)
    times (the row's coordinate `d`, or one at `d = 16`), the rows read off the arrays. -/
private def addend (c : Dev nD) (n : ℕ) (i : S1x64x17.Idx) : EReal :=
  ∑ u : Fin 8000, oh (labAt (V c main_v0) (8000 * n + u.val)) (i 1) * fe (featAt (V c main_arg0) (8000 * n + u.val)) (i 2)

private theorem stp_apply (c : Dev nD) (n : ℕ) (h : n < cfg0.N) (acc : Vec Ideal S1x64x17 .f32) (i : S1x64x17.Idx) :
    stp V c n h acc i = acc i + addend V c n i := by
  obtain ⟨p, q, r, rfl⟩ : ∃ (p : Fin 1) (q : Fin 64) (r : Fin 17), i = ix3 p q r := ⟨i 0, i 1, i 2, eq_ix3 i⟩
  obtain rfl : p = 0 := Subsingleton.elim _ _
  unfold stp addend
  refine (Pay.pay0_acc (xblk V c ⟨n, h⟩) (lblk V c ⟨n, h⟩) acc q r).trans ?_
  refine congrArg (acc (ix3 0 q r) + ·) (Finset.sum_congr rfl fun u _ => ?_)
  rw [lblk_apply V c n h u]
  exact congrArg (fun x => oh (labAt (V c main_v0) (8000 * n + u.val)) q * fe x r) (funext fun e => xblk_apply V c n h u e)

private theorem rst_apply (c : Dev nD) (n : ℕ) (h : n < cfg0.N) (i : S1x64x17.Idx) :
    rst V c n h i = 0 + addend V c n i := by
  have e := stp_apply V c n h (k0_pay1 (F := Ideal)) i
  rw [Pay.pay0_zero i] at e
  exact e

/-- After the last point of a run of 125 the block's entry is the sum of the run's addends. -/
private theorem fold_apply (c : Dev nD) (t : ℕ) (ht : t < cfg0.N) (h124 : t % 125 = 124) (i : S1x64x17.Idx) :
    outsAt0 V c t ht i = ∑ s ∈ Finset.range 125, addend V c (125 * (t / 125) + s) i := by
  have h' : 125 * (t / 125) + t % 125 < cfg0.N := by rw [Nat.div_add_mod]; exact ht
  rw [Pipeline.eq_accAt_of_mod (outsAt0 V c) 125 (rst V c) (stp V c) (outsAt_reset V c) (outsAt_step V c) (by norm_num) t ht h']
  have e := Pipeline.accAt_add_apply (ι := S1x64x17.Idx) (β := EReal) (rst V c) (stp V c) (fun _ => 0) (addend V c)
    (125 * (t / 125)) 124 (fun h i => rst_apply V c _ h i) (fun n h acc i _ _ => stp_apply V c n h acc i) (t % 125) (by omega) h' i
  rw [e, zero_add, h124]

/-- Entry (j, cl, d) of the result: the sum over the 125 points of block `j`'s run and over each point's 8000 rows. -/
private def ent (c : Dev nD) (j : ℕ) (cl : Fin 64) (d : Fin 17) : EReal :=
  ∑ s ∈ Finset.range 125, ∑ u : Fin 8000,
    oh (labAt (V c main_v0) (8000 * (125 * j + s) + u.val)) cl * fe (featAt (V c main_arg0) (8000 * (125 * j + s) + u.val)) d

/-- The result array as one function of the label and feature arrays. -/
private def G0 (c : Dev nD) : S2x64x17.Idx → EReal := fun i => ent V c (i 0).val (i 1) (i 2)

/-- What the point that ends block `t / 125`'s run holds at entry (0, cl, d) of its block. -/
private theorem fold_entry (c : Dev nD) (t : Fin cfg0.N) (h124 : t.val % 125 = 124) (cl : Fin 64) (d : Fin 17) :
    outsAt0 V c t.val t.isLt (ix3 0 cl d) = ent V c (t.val / 125) cl d :=
  fold_apply V c t.val t.isLt h124 (ix3 0 cl d)

/-- A point that writes the result block back writes block `t / 125` of `G0`. -/
private theorem flushed_eq (c : Dev nD) (t : Fin cfg0.N) (hf : (cfg0.win 2).flush t = true) :
    (dat0 V c).flushed 2 t = ((cfg0.win 2).blk t).view.read (Elt Ideal) (G0 V c) := by
  have h124 : t.val % 125 = 124 := (flush0_2 t).mp hf
  have hN : t.val < 250 := lt_of_lt_of_eq t.isLt (show cfg0.N = 250 from N_0)
  obtain ⟨-, -, -, -, i0, i1, i2⟩ := idx_facts t
  show (cfg0.win 2).cut (grid0.coords t) ((dat0 V c).after 2 t) = _
  rw [after0_2]
  funext y
  have h0 : (y 0).val < 1 := (y 0).isLt
  have h1 : (y 1).val < 64 := (y 1).isLt
  have h2 : (y 2).val < 17 := (y 2).isLt
  rw [View.read_apply]
  have hx : (cfg0.win 2).xinj (grid0.coords t) y = ix3 (0 : Fin 1) (⟨(y 1).val, h1⟩ : Fin 64) (⟨(y 2).val, h2⟩ : Fin 17) := by
    funext a
    apply Fin.ext
    match a with
    | ⟨0, _⟩ => show (y 0).val = 0; omega
    | ⟨1, _⟩ => rfl
    | ⟨2, _⟩ => rfl
  have he : ((cfg0.win 2).blk t).view.emb y
      = ix3 (⟨t.val / 125, by omega⟩ : Fin 2) (⟨(y 1).val, h1⟩ : Fin 64) (⟨(y 2).val, h2⟩ : Fin 17) := by
    funext a
    apply Fin.ext
    match a with
    | ⟨0, _⟩ => show win0_2.index t (0 : Fin 3) * 1 + 1 * (y 0).val = t.val / 125; rw [i0]; omega
    | ⟨1, _⟩ => show win0_2.index t (1 : Fin 3) * 64 + 1 * (y 1).val = (y 1).val; rw [i1]; omega
    | ⟨2, _⟩ => show win0_2.index t (2 : Fin 3) * 17 + 1 * (y 2).val = (y 2).val; rw [i2]; omega
  show outsAt0 V c t.val t.isLt ((cfg0.win 2).xinj (grid0.coords t) y) = G0 V c (((cfg0.win 2).blk t).view.emb y)
  rw [hx, he]
  exact fold_entry V c t h124 _ _

/-- Entry (j, c, d) of the first call's result array after the call. -/
theorem arr0_apply (c : Dev nD) (j : Fin 2) (cl : Fin 64) (d : Fin 17) :
    (dat0 V c).arrAt 2 cfg0.N (ix3 j cl d)
      = ∑ s ∈ Finset.range 125, ∑ t : Fin 8000,
          oh (labAt (V c main_v0) (8000 * (125 * j.val + s) + t.val)) cl
            * fe (featAt (V c main_arg0) (8000 * (125 * j.val + s) + t.val)) d := by
  have hN : cfg0.N = 250 := N_0
  have hj : j.val < 2 := j.isLt
  have hcl : cl.val < 64 := cl.isLt
  have hd : d.val < 17 := d.isLt
  have ht : 125 * j.val + 124 < cfg0.N := by omega
  have hf : (cfg0.win 2).flush ⟨125 * j.val + 124, ht⟩ = true :=
    (flush0_2 ⟨125 * j.val + 124, ht⟩).mpr (by show (125 * j.val + 124) % 125 = 124; omega)
  obtain ⟨-, -, -, -, i0, i1, i2⟩ := idx_facts ⟨125 * j.val + 124, ht⟩
  refine ((dat0 V c).arrAt_apply_of_mem 2 (G0 V c) (flushed_eq V c) cfg0.N ⟨125 * j.val + 124, ht⟩ (ix3 j cl d) ht hf ?_).trans rfl
  show ix3 j cl d ∈ ((View.whole main_v1).slice (win0_2.rect ⟨125 * j.val + 124, ht⟩)).set
  rw [View.set_slice_whole, Rect.mem_set_unit]
  intro a
  match a with
  | ⟨0, _⟩ =>
    show win0_2.index ⟨125 * j.val + 124, ht⟩ (0 : Fin 3) * 1 ≤ j.val ∧ j.val < win0_2.index ⟨125 * j.val + 124, ht⟩ (0 : Fin 3) * 1 + 1
    rw [i0]; show (125 * j.val + 124) / 125 * 1 ≤ j.val ∧ j.val < (125 * j.val + 124) / 125 * 1 + 1; omega
  | ⟨1, _⟩ =>
    show win0_2.index ⟨125 * j.val + 124, ht⟩ (1 : Fin 3) * 64 ≤ cl.val ∧ cl.val < win0_2.index ⟨125 * j.val + 124, ht⟩ (1 : Fin 3) * 64 + 64
    rw [i1]; omega
  | ⟨2, _⟩ =>
    show win0_2.index ⟨125 * j.val + 124, ht⟩ (2 : Fin 3) * 17 ≤ d.val ∧ d.val < win0_2.index ⟨125 * j.val + 124, ht⟩ (2 : Fin 3) * 17 + 17
    rw [i2]; omega

end Cert.KernelIdeal.Reg0

end
-- ==== Proof.Region1.lean ====
/-
  What the second pallas_call leaves in its result array, at the ideal values and for any contents it is entered with.

  The grid is 2 × 125 points; point 125·j + s reads rows 8000·(125·j + s) … + 7999 of the features and of the labels, and
  the whole [64, 16] table of centres, and adds, into block j of the [2, 64, 1] result, the product of the tile's
  transposed one-hot matrix with the column of the rows' squared hinges — each row's centre picked from the table by
  the row's own one-hot row; block j is reset at s = 0 and written back after s = 124. So entry (j, c, 0) ends as the sum
  over s < 125 and t < 8000 of (label of row n is c) · (squared hinge of row n), n = 8000·(125·j + s) + t.
-/
import proofs.«420134_j12584254177316_3_alg».proof.Proof.Gen.KernelIdeal.Frame
import proofs.«420134_j12584254177316_3_alg».proof.Proof.Payload
import proofs.«420134_j12584254177316_3_alg».proof.Proof.Hinge
import Idealize.ShloMosaic.Lib.Pipeline.Value
import Idealize.ShloMosaic.Lib.ValueIdx
import Idealize.ShloMosaic.Lib.Tactic

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen NbrLoss

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- At a point past the first of a run the body leaves, in the output's staging buffer holding `xo`, its stored value
    over the three loaded blocks and `xo`: one covering store, whose loads read the whole buffers. -/
private theorem out_B (c : Dev nD) (i : grid1.Coords) (a2 : Memref sig .tc .vmem S8000x16 .f32) (h2 : a2.IsWhole)
    (a3 : Memref sig .tc .vmem S8000x1 .i32) (h3 : a3.IsWhole) (a4 : Memref sig .tc .vmem S64x16 .f32) (h4 : a4.IsWhole)
    (a5 : Memref sig .tc .vmem S1x64x1 .f32) (h5 : a5.IsWhole) (hc : ¬cond1_0 i)
    (x0 : Vec F S8000x16 .f32) (x1 : Vec F S8000x1 .i32) (x2 : Vec F S64x16 .f32) (xo : Vec F S1x64x1 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S8000x16) hz2, View.ld_unit_zero (S := S8000x1) hz2, View.ld_unit_zero (S := S64x16) hz2,
    View.ld_unit_zero (S := S1x64x1) hz3]

/-- At the first point of a run the body stores the reset value, reads it back, and leaves its stored value over the
    three loaded blocks and the reset value. -/
private theorem out_A (c : Dev nD) (i : grid1.Coords) (a2 : Memref sig .tc .vmem S8000x16 .f32) (h2 : a2.IsWhole)
    (a3 : Memref sig .tc .vmem S8000x1 .i32) (h3 : a3.IsWhole) (a4 : Memref sig .tc .vmem S64x16 .f32) (h4 : a4.IsWhole)
    (a5 : Memref sig .tc .vmem S1x64x1 .f32) (h5 : a5.IsWhole) (hc : cond1_0 i)
    (x0 : Vec F S8000x16 .f32) (x1 : Vec F S8000x1 .i32) (x2 : Vec F S64x16 .f32) :
    out1_A_3 c i a2 h2 a3 h3 a4 h4 a5 h5 hc x0 x1 x2 = k1_pay2 x0 x1 x2 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x64x1) hz3, View.readCov_unit_zero (S := S1x64x1) _ hz3]
  simp only [View.readAt_eq_ld, h2.read_unread, h3.read_unread, h4.read_unread,
    View.ld_unit_zero (S := S8000x16) hz2, View.ld_unit_zero (S := S8000x1) hz2, View.ld_unit_zero (S := S64x16) hz2]

end Pieces

section Blocks

-- the buffer contents the region is entered with: any
variable (V : (c : Dev nD) → (b : Ref sig .tc) → Buf (Elt Ideal) ((c : Thread nD τ).loc b))

/-- The three input windows' block numbers over the grid: the feature and label windows are at row block `t` at point
    `t`, the centres' window at block zero. -/
private theorem in_index : ∀ t : Fin cfg1.N,
    (win1_0.index t 0 = t.val ∧ win1_0.index t 1 = 0) ∧ (win1_1.index t 0 = t.val ∧ win1_1.index t 1 = 0)
      ∧ (win1_2.index t 0 = 0 ∧ win1_2.index t 1 = 0) :=
  (by decide +kernel : ∀ t : Fin grid1.N,
    (win1_0.index t 0 = t.val ∧ win1_0.index t 1 = 0) ∧ (win1_1.index t 0 = t.val ∧ win1_1.index t 1 = 0)
      ∧ (win1_2.index t 0 = 0 ∧ win1_2.index t 1 = 0))

/-- The feature window's block at point `t`, the label window's, the centres'. -/
private abbrev fblk (c : Dev nD) (t : Fin cfg1.N) : Vec Ideal S8000x16 .f32 := iblk1 V c 0 t
private abbrev lblk (c : Dev nD) (t : Fin cfg1.N) : Vec Ideal S8000x1 .i32 := iblk1 V c 1 t
private abbrev cblk (c : Dev nD) (t : Fin cfg1.N) : Vec Ideal S64x16 .f32 := iblk1 V c 2 t

/-- Row `r` of the feature block at point `t` is row `8000·t + r` of the feature array. -/
private theorem fblk_apply (c : Dev nD) (t : Fin cfg1.N) (r : Fin 8000) (e : Fin 16) :
    fblk V c t (ix2 r e) = featAt (V c main_arg0) (8000 * t.val + r.val) e := by
  have hN : t.val < 250 := lt_of_lt_of_eq t.isLt (show cfg1.N = 250 from N_1)
  have hlt : 8000 * t.val + r.val < 2000000 := by have := r.isLt; omega
  unfold featAt
  rw [dif_pos hlt]
  show iblk1 V c 0 t (ix2 r e) = _
  unfold iblk1
  rw [View.read_apply]
  show V c main_arg0 _ = V c main_arg0 _
  congr 1
  funext a
  apply Fin.ext
  match a with
  | ⟨0, _⟩ =>
    refine (Pipeline.Window.rect_emb_val win1_0 t (ix2 r e) (0 : Fin 2)).trans ?_
    rw [(in_index t).1.1, show win1_0.size 0 = 8000 from rfl]
    show t.val * 8000 + r.val = 8000 * t.val + r.val
    omega
  | ⟨1, _⟩ =>
    refine (Pipeline.Window.rect_emb_val win1_0 t (ix2 r e) (1 : Fin 2)).trans ?_
    rw [(in_index t).1.2, show win1_0.size 1 = 16 from rfl]
    show 0 * 16 + e.val = e.val
    omega

/-- Row `r` of the label block at point `t` is row `8000·t + r` of the label array. -/
private theorem lblk_apply (c : Dev nD) (t : Fin cfg1.N) (r : Fin 8000) :
    lblk V c t (ix2 r 0) = labAt (V c main_v0) (8000 * t.val + r.val) := by
  have hN : t.val < 250 := lt_of_lt_of_eq t.isLt (show cfg1.N = 250 from N_1)
  have hlt : 8000 * t.val + r.val < 2000000 := by have := r.isLt; omega
  unfold labAt
  rw [dif_pos hlt]
  show iblk1 V c 1 t (ix2 r 0) = _
  unfold iblk1
  rw [View.read_apply]
  show V c main_v0 _ = V c main_v0 _
  congr 1
  funext a
  apply Fin.ext
  match a with
  | ⟨0, _⟩ =>
    refine (Pipeline.Window.rect_emb_val win1_1 t (ix2 r 0) (0 : Fin 2)).trans ?_
    rw [(in_index t).2.1.1, show win1_1.size 0 = 8000 from rfl]
    show t.val * 8000 + r.val = 8000 * t.val + r.val
    omega
  | ⟨1, _⟩ =>
    refine (Pipeline.Window.rect_emb_val win1_1 t (ix2 r 0) (1 : Fin 2)).trans ?_
    rw [(in_index t).2.1.2, show win1_1.size 1 = 1 from rfl]
    rfl

/-- The centres' block at every point is the whole table. -/
private theorem cblk_eq (c : Dev nD) (t : Fin cfg1.N) : cblk V c t = V c main_v6 := by
  funext y
  show iblk1 V c 2 t y = _
  unfold iblk1
  rw [View.read_apply]
  show V c main_v6 _ = V c main_v6 _
  congr 1
  funext a
  apply Fin.ext
  match a with
  | ⟨0, _⟩ =>
    refine (Pipeline.Window.rect_emb_val_of_index_zero win1_2 t (0 : Fin 2) (in_index t).2.2.1 y).trans ?_
    rfl
  | ⟨1, _⟩ =>
    refine (Pipeline.Window.rect_emb_val_of_index_zero win1_2 t (1 : Fin 2) (in_index t).2.2.2 y).trans ?_
    rfl

end Blocks

section Fold

variable (V : (c : Dev nD) → (b : Ref sig .tc) → Buf (Elt Ideal) ((c : Thread nD τ).loc b))

/-- The cluster coordinate of an entry of the [1, 64, 1] block. -/
private abbrev mid (i : S1x64x1.Idx) : Fin 64 := i 1

/-- An entry of the [1, 64, 1] block is (0, its cluster coordinate, 0). -/
private theorem eq_ix3_mid (i : S1x64x1.Idx) : i = ix3 0 (mid i) 0 := by
  funext a
  match a with
  | ⟨0, _⟩ =>
    have h : (i 0).val < 1 := (i 0).isLt
    exact Fin.ext (show (i 0).val = 0 by omega)
  | ⟨1, _⟩ => rfl
  | ⟨2, _⟩ =>
    have h : (i 2).val < 1 := (i 2).isLt
    exact Fin.ext (show (i 2).val = 0 by omega)

/-- Row block `n`'s addend at cluster `q`: over the block's 8000 rows, (the row's label is `q`) times the row's squared
    hinge against the centre its label picks. A function of every natural `n`. -/
private def addendAt (c : Dev nD) (n : ℕ) (q : Fin 64) : EReal :=
  ∑ t : Fin 8000, oh (labAt (V c main_v0) (8000 * n + t.val)) q
    * h2 (pick (V c main_v6) (labAt (V c main_v0) (8000 * n + t.val))) (featAt (V c main_arg0) (8000 * n + t.val))

/-- What the first point of a run leaves, and what a later point makes of what the point before left. -/
private def resetAt (c : Dev nD) (n : ℕ) (h : n < cfg1.N) : S1x64x1.Idx → EReal :=
  k1_pay2 (F := Ideal) (fblk V c ⟨n, h⟩) (lblk V c ⟨n, h⟩) (cblk V c ⟨n, h⟩) (k1_pay1 (F := Ideal))
private def stepAt (c : Dev nD) (n : ℕ) (h : n < cfg1.N) (acc : S1x64x1.Idx → EReal) : S1x64x1.Idx → EReal :=
  k1_pay2 (F := Ideal) (fblk V c ⟨n, h⟩) (lblk V c ⟨n, h⟩) (cblk V c ⟨n, h⟩) acc

/-- A point's step adds the point's addend, entry by entry. -/
private theorem stepAt_apply (c : Dev nD) (n : ℕ) (h : n < cfg1.N) (acc : S1x64x1.Idx → EReal) (i : S1x64x1.Idx) :
    stepAt V c n h acc i = acc i + addendAt V c n (mid i) := by
  obtain ⟨q, rfl⟩ : ∃ q : Fin 64, i = ix3 0 q 0 := ⟨mid i, eq_ix3_mid i⟩
  show stepAt V c n h acc (ix3 0 q 0) = acc (ix3 0 q 0) + addendAt V c n q
  unfold stepAt addendAt
  refine (Pay.pay1_acc (fblk V c ⟨n, h⟩) (lblk V c ⟨n, h⟩) (cblk V c ⟨n, h⟩) acc q).trans ?_
  refine congrArg (fun z => acc (ix3 0 q 0) + z) ?_
  refine Finset.sum_congr rfl fun t _ => ?_
  have hf : (fun e => fblk V c ⟨n, h⟩ (ix2 t e)) = featAt (V c main_arg0) (8000 * n + t.val) :=
    funext fun e => fblk_apply V c ⟨n, h⟩ t e
  rw [lblk_apply V c ⟨n, h⟩ t, cblk_eq V c ⟨n, h⟩, hf]

/-- The first point of a run leaves its own addend over zero. -/
private theorem resetAt_apply (c : Dev nD) (n : ℕ) (h : n < cfg1.N) (i : S1x64x1.Idx) :
    resetAt V c n h i = 0 + addendAt V c n (mid i) := by
  refine (stepAt_apply V c n h (k1_pay1 (F := Ideal)) i).trans ?_
  rw [Pay.pay1_zero]

/-- What the output's staging buffer holds after point `t`: the addends of the points of `t`'s run up to `t`. -/
private theorem outsAt_apply (c : Dev nD) (t : ℕ) (ht : t < cfg1.N) (i : S1x64x1.Idx) :
    outsAt1 V c t ht i = ∑ s ∈ Finset.range (t % 125 + 1), addendAt V c (125 * (t / 125) + s) (mid i) := by
  have h' : 125 * (t / 125) + t % 125 < cfg1.N := by rw [Nat.div_add_mod]; exact ht
  have e := Pipeline.eq_accAt_of_mod (fun n h => (outsAt1 V c n h : S1x64x1.Idx → EReal)) 125 (resetAt V c) (stepAt V c)
    (fun n h hm => (outsAt1_A V c ⟨n, h⟩ hm).trans
      (out_A c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
        (ms1_3 ⟨n, h⟩) (hs1_3 ⟨n, h⟩) ((hcond1_0 ⟨n, h⟩).mpr hm) (fblk V c ⟨n, h⟩) (lblk V c ⟨n, h⟩) (cblk V c ⟨n, h⟩)))
    (fun n h hm => (outsAt1_B V c ⟨n + 1, h⟩ hm).trans
      (out_B c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩)
        (fun hh => hm ((hcond1_0 ⟨n + 1, h⟩).mp hh)) (fblk V c ⟨n + 1, h⟩) (lblk V c ⟨n + 1, h⟩) (cblk V c ⟨n + 1, h⟩)
        (outsAt1 V c n (Nat.lt_of_succ_lt h))))
    (by decide) t ht h'
  refine (congrFun e i).trans ?_
  refine (Pipeline.accAt_add_apply (ι := S1x64x1.Idx) (β := EReal) (resetAt V c) (stepAt V c) (fun _ => 0)
    (fun n i => addendAt V c n (mid i)) (125 * (t / 125)) (t % 125)
    (fun h i => resetAt_apply V c _ h i) (fun n h acc i _ _ => stepAt_apply V c n h acc i) (t % 125) le_rfl h' i).trans ?_
  exact zero_add _

end Fold

section Array

variable (V : (c : Dev nD) → (b : Ref sig .tc) → Buf (Elt Ideal) ((c : Thread nD τ).loc b))

/-- The result window's block number over the grid: block `t / 125` along the first axis, zero along the others. -/
private theorem out_index : ∀ t : Fin cfg1.N, win1_3.index t 0 = t.val / 125 ∧ win1_3.index t 1 = 0 ∧ win1_3.index t 2 = 0 :=
  (by decide +kernel : ∀ t : Fin grid1.N, win1_3.index t 0 = t.val / 125 ∧ win1_3.index t 1 = 0 ∧ win1_3.index t 2 = 0)

/-- The whole result array: entry (j, q, ·) is the sum of the addends at cluster `q` of run `j`'s 125 row blocks. -/
private def resArr (c : Dev nD) : S2x64x1.Idx → EReal := fun i =>
  ∑ s ∈ Finset.range 125, addendAt V c (125 * (i 0).val + s) (i 1)

/-- What a write-back writes is its block of that array. -/
private theorem flushed_eq (c : Dev nD) (t : Fin cfg1.N) (hf : (cfg1.win 3).flush t = true) :
    (dat1 V c).flushed 3 t = ((cfg1.win 3).blk t).view.read (Elt Ideal) (resArr V c) := by
  have hm : t.val % 125 = 124 := (flush1_3 t).mp hf
  funext y
  show (cfg1.win 3).cut (grid1.coords t) ((dat1 V c).after 3 t) y = _
  rw [after1_3, View.read_apply]
  show outsAt1 V c t.val t.isLt ((cfg1.win 3).xinj (grid1.coords t) y) = resArr V c (((cfg1.win 3).blk t).view.emb y)
  rw [outsAt_apply, hm]
  unfold resArr
  refine Finset.sum_congr rfl fun s _ => ?_
  have e0 : ((((cfg1.win 3).blk t).view.emb y) 0).val = t.val / 125 := by
    refine (Pipeline.Window.rect_emb_val win1_3 t y (0 : Fin 3)).trans ?_
    rw [(out_index t).1, show win1_3.size 0 = 1 from rfl]
    have : (y 0).val < 1 := (y 0).isLt
    omega
  have e1 : ((((cfg1.win 3).blk t).view.emb y) 1).val = (y 1).val := by
    refine (Pipeline.Window.rect_emb_val win1_3 t y (1 : Fin 3)).trans ?_
    rw [(out_index t).2.1]
    omega
  rw [e0]
  exact congrArg (addendAt V c (125 * (t.val / 125) + s)) (Fin.ext e1.symm)

end Array

-- the buffer contents the region is entered with: any
variable (V : (c : Dev nD) → (b : Ref sig .tc) → Buf (Elt Ideal) ((c : Thread nD τ).loc b))

/-- Entry (j, c, 0) of the second call's result array after the call. -/
theorem arr1_apply (c : Dev nD) (j : Fin 2) (cl : Fin 64) :
    (dat1 V c).arrAt 3 cfg1.N (ix3 j cl 0)
      = ∑ s ∈ Finset.range 125, ∑ t : Fin 8000,
          oh (labAt (V c main_v0) (8000 * (125 * j.val + s) + t.val)) cl
            * h2 (pick (V c main_v6) (labAt (V c main_v0) (8000 * (125 * j.val + s) + t.val)))
                (featAt (V c main_arg0) (8000 * (125 * j.val + s) + t.val)) := by
  have hN : cfg1.N = 250 := N_1
  have hj : j.val < 2 := j.isLt
  have hlt : 125 * j.val + 124 < cfg1.N := by rw [hN]; omega
  have hf : (cfg1.win 3).flush ⟨125 * j.val + 124, hlt⟩ = true :=
    (flush1_3 ⟨125 * j.val + 124, hlt⟩).mpr (show (125 * j.val + 124) % 125 = 124 by omega)
  -- entry (j, cl, 0) lies in the block written back after the last point of run j, which is its block of `resArr`
  refine ((dat1 V c).arrAt_apply_of_mem 3 (resArr V c) (flushed_eq V c) cfg1.N ⟨125 * j.val + 124, hlt⟩ (ix3 j cl 0) hlt hf ?_).trans ?_
  · show ix3 j cl 0 ∈ ((View.whole main_v7).slice (win1_3.rect ⟨125 * j.val + 124, hlt⟩)).set
    rw [View.set_slice_whole, Rect.mem_set_unit]
    intro a
    have hi := out_index ⟨125 * j.val + 124, hlt⟩
    match a with
    | ⟨0, _⟩ =>
      show win1_3.index ⟨125 * j.val + 124, hlt⟩ 0 * 1 ≤ j.val ∧ j.val < win1_3.index ⟨125 * j.val + 124, hlt⟩ 0 * 1 + 1
      rw [hi.1]
      show (125 * j.val + 124) / 125 * 1 ≤ j.val ∧ j.val < (125 * j.val + 124) / 125 * 1 + 1
      omega
    | ⟨1, _⟩ =>
      show win1_3.index ⟨125 * j.val + 124, hlt⟩ 1 * 64 ≤ cl.val ∧ cl.val < win1_3.index ⟨125 * j.val + 124, hlt⟩ 1 * 64 + 64
      rw [hi.2.1]
      have := cl.isLt
      omega
    | ⟨2, _⟩ =>
      show win1_3.index ⟨125 * j.val + 124, hlt⟩ 2 * 1 ≤ 0 ∧ 0 < win1_3.index ⟨125 * j.val + 124, hlt⟩ 2 * 1 + 1
      rw [hi.2.2]
      omega
  · rfl

end Cert.KernelIdeal.Reg1

end
-- ==== Proof.RefReads.lean ====
/-
  The reference's segment sums and its gather, read at an entry at the ideal values.

  jax's segment_sum prints as a scatter with an add body: entry c of the result is the initial zero plus the sum of the
  updates whose (signed, unclamped) scatter index is c; an index outside the sixty-four clusters lands nowhere. So the
  count of cluster c is the sum of the constant one over the rows whose label word is c, the feature sum at (c, d) the
  sum of coordinate d over those rows, and the hinge sum the sum of the rows' squared hinges. The centres gathered at a
  row whose label word is cluster c's are row c of the table (the index is non-negative and inside the table, so
  neither jax's wrap of negative indices nor the gather's clamp moves it), and the row's squared hinge is then the
  squared hinge against that centre.
-/
import proofs.«420134_j12584254177316_3_alg».proof.Proof.Gen.ReferenceIdeal.Read
import proofs.«420134_j12584254177316_3_alg».proof.Proof.Hinge
import Idealize.ShloMosaic.PureOps.Ideal.Laws
import Idealize.ShloMosaic.Lib.ValueIdx
import Idealize.ShloMosaic.Lib.Pipeline.Value

noncomputable section

namespace Cert.ReferenceIdeal.RefReads

open Idealize.ShloMosaic Idealize.ShloMosaic.ValueIdx Cert.ReferenceIdeal Cert.ReferenceIdeal.Read NbrLoss

variable (x0 : (⟨S2000000x16, .f32⟩ : BufTy).Contents (Elt Ideal)) (x1 : (⟨S2000000, .i32⟩ : BufTy).Contents (Elt Ideal))

/-- A word whose signed value is a cluster number below sixty-four is that number's word. -/
private theorem toInt_eq_iff (w : BitVec 32) (c : Fin 64) : w.toInt = (c.val : Int) ↔ w = BitVec.ofNat 32 c.val := by
  have hc := c.isLt
  constructor
  · intro h
    apply BitVec.eq_of_toNat_eq
    rw [BitVec.toNat_ofNat]
    have := BitVec.toInt_eq_toNat_cond w
    have hw := w.isLt
    split at this <;> omega
  · rintro rfl
    rw [BitVec.toInt_eq_toNat_cond, BitVec.toNat_ofNat]
    have : c.val % 2 ^ 32 = c.val := Nat.mod_eq_of_lt (by omega)
    rw [this, if_pos (by omega)]

/-! ## The rank-one segment sum (the counts and the hinge sums)

Update row `n` reads its index at `(n, 0)` of the index array, signed and unclamped, and has no window coordinate: it
lands at cluster `c` exactly when that word is `c`'s. -/

private abbrev d1 := scatter_S64_S2000000x1_S2000000_n_0_0_1

private theorem d1_siIdx (n : Fin 2000000) (k : Fin d1.scatterDimsToOperandDims.length) :
    d1.siIdx (ix1 n) k = ix2 n (0 : Fin 1) := by
  funext b; refine Fin.ext ?_
  match b with
  | ⟨0, _⟩ => rfl
  | ⟨1, _⟩ =>
    have hk : k.val < 1 := k.isLt
    show k.val = 0
    omega

private theorem d1_start (n : Fin 2000000) (idx : IVec S2000000x1 32) (a : Fin 1) :
    d1.start (ix1 n) idx a = (idx (ix2 n 0)).toInt := by
  obtain rfl : a = 0 := Subsingleton.elim _ _
  unfold ScatterDims.start
  rw [dif_pos (show (0 : Fin 1) ∈ d1.scatterDimsToOperandDims from List.mem_singleton.mpr rfl), d1_siIdx]

private theorem d1_window (n : Fin 2000000) (a : Fin 1) : d1.window (ix1 n) a = 0 := by
  obtain rfl : a = 0 := Subsingleton.elim _ _
  unfold ScatterDims.window
  rw [dif_neg (by decide)]

/-- Where an update of the rank-one scatter lands: row `n` lands at cluster `c` exactly when its index word, read
    signed, is `c`. -/
private theorem d1_resultIdx (n : Fin 2000000) (idx : IVec S2000000x1 32) (c : Fin 64) :
    d1.resultIdx? (ix1 n) idx = some (ix1 c) ↔ idx (ix2 n 0) = BitVec.ofNat 32 c.val := by
  rw [← toInt_eq_iff]
  have hc := c.isLt
  unfold ScatterDims.resultIdx?
  split
  · rename_i h
    rw [Option.some.injEq]
    have h0 := h 0
    rw [d1_start, d1_window] at h0
    constructor
    · intro hf
      have := congrArg (fun f => (f 0).val) hf
      simp only [d1_start, d1_window] at this
      show (idx (ix2 n 0)).toInt = _
      change ((idx (ix2 n 0)).toInt + ((0 : Nat) : Int)).toNat = c.val at this
      omega
    · intro hi
      funext a
      obtain rfl : a = 0 := Subsingleton.elim _ _
      refine Fin.ext ?_
      show (d1.start (ix1 n) idx 0 + (d1.window (ix1 n) 0 : Int)).toNat = c.val
      rw [d1_start, d1_window]
      omega
  · rename_i h
    constructor
    · intro hf; exact absurd hf (by simp)
    · intro hi
      exfalso; apply h
      intro a
      obtain rfl : a = 0 := Subsingleton.elim _ _
      rw [d1_start, d1_window]
      show 0 ≤ (idx (ix2 n 0)).toInt + ((0:Nat):Int) ∧ (idx (ix2 n 0)).toInt + ((0:Nat):Int) < ((64 : Nat) : Int)
      omega

/-- The rank-one segment sum at an entry: the initial value plus the updates of the rows whose index word is the
    cluster's. -/
private theorem scatter1_apply (init : S64.Idx → EReal) (idx : IVec S2000000x1 32) (upd : S2000000.Idx → EReal)
    (c : Fin 64) :
    Ideal.hostScatterAdd d1 init idx upd (ix1 c)
      = init (ix1 c) + ∑ n ∈ Finset.univ.filter (fun n : Fin 2000000 => idx (ix2 n 0) = BitVec.ofNat 32 c.val),
          upd (ix1 n) := by
  unfold Ideal.hostScatterAdd
  refine congrArg (init (ix1 c) + ·) ?_
  symm
  refine Finset.sum_bij (fun n _ => ix1 n) ?_ ?_ ?_ ?_
  · intro n hn
    rw [Finset.mem_filter] at hn ⊢
    exact ⟨Finset.mem_univ _, (d1_resultIdx n idx c).2 hn.2⟩
  · intro n _ n' _ h
    exact congrFun h 0
  · intro j hj
    rw [Finset.mem_filter] at hj
    obtain ⟨n, rfl⟩ : ∃ n : Fin 2000000, j = ix1 n := ⟨j 0, eq_ix1 j⟩
    exact ⟨n, Finset.mem_filter.2 ⟨Finset.mem_univ _, (d1_resultIdx n idx c).1 hj.2⟩, rfl⟩
  · intro n _; rfl

/-! ## The rank-two segment sum (the feature sums)

Update entry `(n, e)` reads its index at `(n, 0)` for the row and keeps its column `e` as the window coordinate. -/

private abbrev d2 := scatter_S64x16_S2000000x1_S2000000x16_1_0_0_1

private theorem d2_siIdx (n : Fin 2000000) (e : Fin 16) (k : Fin d2.scatterDimsToOperandDims.length) :
    d2.siIdx (ix2 n e) k = ix2 n (0 : Fin 1) := by
  funext b; refine Fin.ext ?_
  match b with
  | ⟨0, _⟩ => rfl
  | ⟨1, _⟩ =>
    have hk : k.val < 1 := k.isLt
    show k.val = 0
    omega

private theorem d2_start0 (n : Fin 2000000) (e : Fin 16) (idx : IVec S2000000x1 32) (a : Fin 2) (ha : a.val = 0) :
    d2.start (ix2 n e) idx a = (idx (ix2 n 0)).toInt := by
  obtain rfl : a = 0 := Fin.ext ha
  unfold ScatterDims.start
  rw [dif_pos (show (0 : Fin 2) ∈ d2.scatterDimsToOperandDims from List.mem_singleton.mpr rfl), d2_siIdx]

private theorem d2_start1 (n : Fin 2000000) (e : Fin 16) (idx : IVec S2000000x1 32) (a : Fin 2) (ha : a.val = 1) :
    d2.start (ix2 n e) idx a = 0 := by
  obtain rfl : a = 1 := Fin.ext ha
  unfold ScatterDims.start
  rw [dif_neg (by decide)]

private theorem d2_window0 (n : Fin 2000000) (e : Fin 16) (a : Fin 2) (ha : a.val = 0) :
    d2.window (ix2 n e) a = 0 := by
  obtain rfl : a = 0 := Fin.ext ha
  unfold ScatterDims.window
  rw [dif_neg (by decide)]

private theorem d2_window1 (n : Fin 2000000) (e : Fin 16) (a : Fin 2) (ha : a.val = 1) :
    d2.window (ix2 n e) a = e.val := by
  obtain rfl : a = 1 := Fin.ext ha
  unfold ScatterDims.window
  rw [dif_pos (by decide)]
  rfl

/-- Where an update of the rank-two scatter lands: entry `(n, e)` lands at `(c, d)` exactly when row `n`'s index
    word, read signed, is `c` and the column is kept. -/
private theorem d2_resultIdx (n : Fin 2000000) (e : Fin 16) (idx : IVec S2000000x1 32) (c : Fin 64) (d : Fin 16) :
    d2.resultIdx? (ix2 n e) idx = some (ix2 c d) ↔ idx (ix2 n 0) = BitVec.ofNat 32 c.val ∧ e = d := by
  rw [← toInt_eq_iff]
  have hc := c.isLt
  have he := e.isLt
  have hd := d.isLt
  unfold ScatterDims.resultIdx?
  split
  · rename_i h
    rw [Option.some.injEq]
    have h0 := h ⟨0, by decide⟩
    rw [d2_start0 n e idx _ rfl, d2_window0 n e _ rfl] at h0
    constructor
    · intro hf
      have e0 := congrArg (fun f => (f ⟨0, by decide⟩).val) hf
      have e1 := congrArg (fun f => (f ⟨1, by decide⟩).val) hf
      change (d2.start (ix2 n e) idx ⟨0, by decide⟩ + (d2.window (ix2 n e) ⟨0, by decide⟩ : Int)).toNat = c.val at e0
      change (d2.start (ix2 n e) idx ⟨1, by decide⟩ + (d2.window (ix2 n e) ⟨1, by decide⟩ : Int)).toNat = d.val at e1
      rw [d2_start0 n e idx _ rfl, d2_window0 n e _ rfl] at e0
      rw [d2_start1 n e idx _ rfl, d2_window1 n e _ rfl] at e1
      exact ⟨by omega, Fin.ext (by omega)⟩
    · rintro ⟨hi, rfl⟩
      funext a
      refine Fin.ext ?_
      match a with
      | ⟨0, h0⟩ =>
        show (d2.start (ix2 n e) idx ⟨0, h0⟩ + (d2.window (ix2 n e) ⟨0, h0⟩ : Int)).toNat = c.val
        rw [d2_start0 n e idx ⟨0, h0⟩ rfl, d2_window0 n e ⟨0, h0⟩ rfl]
        omega
      | ⟨1, h1⟩ =>
        show (d2.start (ix2 n e) idx ⟨1, h1⟩ + (d2.window (ix2 n e) ⟨1, h1⟩ : Int)).toNat = e.val
        rw [d2_start1 n e idx ⟨1, h1⟩ rfl, d2_window1 n e ⟨1, h1⟩ rfl]
        omega
  · rename_i h
    constructor
    · intro hf; exact absurd hf (by simp)
    · rintro ⟨hi, rfl⟩
      exfalso; apply h
      intro a
      match a with
      | ⟨0, h0⟩ =>
        rw [d2_start0 n e idx ⟨0, h0⟩ rfl, d2_window0 n e ⟨0, h0⟩ rfl]
        show 0 ≤ (idx (ix2 n 0)).toInt + ((0 : Nat) : Int) ∧ (idx (ix2 n 0)).toInt + ((0 : Nat) : Int) < ((64 : Nat) : Int)
        omega
      | ⟨1, h1⟩ =>
        rw [d2_start1 n e idx ⟨1, h1⟩ rfl, d2_window1 n e ⟨1, h1⟩ rfl]
        show 0 ≤ (0 : Int) + ((e.val : Nat) : Int) ∧ (0 : Int) + ((e.val : Nat) : Int) < ((16 : Nat) : Int)
        omega

/-- The rank-two segment sum at an entry: the initial value plus coordinate `d` of the rows whose index word is the
    cluster's. -/
private theorem scatter2_apply (init : S64x16.Idx → EReal) (idx : IVec S2000000x1 32) (upd : S2000000x16.Idx → EReal)
    (c : Fin 64) (d : Fin 16) :
    Ideal.hostScatterAdd d2 init idx upd (ix2 c d)
      = init (ix2 c d) + ∑ n ∈ Finset.univ.filter (fun n : Fin 2000000 => idx (ix2 n 0) = BitVec.ofNat 32 c.val),
          upd (ix2 n d) := by
  unfold Ideal.hostScatterAdd
  refine congrArg (init (ix2 c d) + ·) ?_
  symm
  refine Finset.sum_bij (fun n _ => ix2 n d) ?_ ?_ ?_ ?_
  · intro n hn
    rw [Finset.mem_filter] at hn ⊢
    exact ⟨Finset.mem_univ _, (d2_resultIdx n d idx c d).2 ⟨hn.2, rfl⟩⟩
  · intro n _ n' _ h
    exact congrFun h 0
  · intro j hj
    rw [Finset.mem_filter] at hj
    obtain ⟨n, e, rfl⟩ : ∃ (n : Fin 2000000) (e : Fin 16), j = ix2 n e := ⟨j 0, j 1, eq_ix2 j⟩
    obtain ⟨hi, rfl⟩ := (d2_resultIdx n e idx c d).1 hj.2
    exact ⟨n, Finset.mem_filter.2 ⟨Finset.mem_univ _, hi⟩, rfl⟩
  · intro n _; rfl

/-! ## The gather of the centres

Result entry `(n, e)` reads the table at the row its start index names, read signed and clamped into the table, and at
its own column `e`. -/

private abbrev g := gather_S64x16_S2000000x1_S2000000x16_1_0_n_n_0_1_116

private theorem g_siIdx (n : Fin 2000000) (e : Fin 16) (k : Fin g.startIndexMap.length) :
    g.siIdx (ix2 n e) k = ix2 n (0 : Fin 1) := by
  funext b; refine Fin.ext ?_
  match b with
  | ⟨0, _⟩ => rfl
  | ⟨1, _⟩ =>
    have hk : k.val < 1 := k.isLt
    show k.val = 0
    omega

/-- The row the gather reads for result row `n`: the start index word of row `n`, read signed and clamped into the
    table. -/
private theorem g_op0 (n : Fin 2000000) (e : Fin 16) (idx : IVec S2000000x1 32) :
    (g.operandIdx (ix2 n e) idx ⟨0, by decide⟩).val = min (idx (ix2 n 0)).toInt.toNat 63 := by
  show g.start (ix2 n e) idx ⟨0, by decide⟩ + g.batchCoord (ix2 n e) ⟨0, by decide⟩ + g.offCoord (ix2 n e) ⟨0, by decide⟩ = _
  rw [GatherDims.batchCoord_eq_zero _ _ _ List.not_mem_nil, GatherDims.offCoord_eq_zero _ _ _ (by decide)]
  simp only [Nat.add_zero]
  unfold GatherDims.start
  rw [dif_pos (show (⟨0, by decide⟩ : Fin 2) ∈ g.startIndexMap from List.mem_singleton.mpr rfl), g_siIdx]
  rfl

/-- The column the gather reads: the result's own column. -/
private theorem g_op1 (n : Fin 2000000) (e : Fin 16) (idx : IVec S2000000x1 32) :
    (g.operandIdx (ix2 n e) idx ⟨1, by decide⟩).val = e.val := by
  show g.start (ix2 n e) idx ⟨1, by decide⟩ + g.batchCoord (ix2 n e) ⟨1, by decide⟩ + g.offCoord (ix2 n e) ⟨1, by decide⟩ = _
  rw [GatherDims.batchCoord_eq_zero _ _ _ List.not_mem_nil]
  unfold GatherDims.start GatherDims.offCoord
  rw [dif_neg (by decide), dif_pos (by decide)]
  simp only [Nat.add_zero, Nat.zero_add]
  rfl

/-- The gather read at `(n, e)`: the table at the clamped row and column `e`. -/
private theorem gather_apply {α : Type} (x : S64x16.Idx → α) (idx : IVec S2000000x1 32) (n : Fin 2000000) (e : Fin 16)
    (r : Fin 64) (hr : r.val = min (idx (ix2 n 0)).toInt.toNat 63) :
    Host.gather g x idx (ix2 n e) = x (ix2 r e) := by
  unfold Host.gather
  refine congrArg x ?_
  funext a
  refine Fin.ext ?_
  match a with
  | ⟨0, _⟩ => exact (g_op0 n e idx).trans hr.symm
  | ⟨1, _⟩ => exact g_op1 n e idx

/-- A cluster number's word is not negative. -/
private theorem slt_zero (c : Fin 64) : IntOp.cmpi .slt (BitVec.ofNat 32 c.val) 0#32 = 0#1 := by
  have hlt : ¬ ((BitVec.ofNat 32 c.val).toInt < (0#32 : BitVec 32).toInt) := by
    rw [(toInt_eq_iff _ c).2 rfl, BitVec.toInt_zero]; omega
  show BitVec.ofBool ((BitVec.ofNat 32 c.val).slt 0#32) = 0#1
  rw [BitVec.slt_eq_decide, decide_eq_false hlt]
  rfl

/-! ## The reference's stages at an entry -/

private theorem idx_v2 (n : Fin 2000000) : idx_main_v2 (ix2 n (0 : Fin 1)) = ix1 n := by
  funext a; match a with | ⟨0, _⟩ => rfl

private theorem v3_eq :
    val_main_v3 (F := Ideal) x1 = Ideal.hostScatterAdd d1 (val_main_v1 (F := Ideal)) (val_main_v2 (F := Ideal) x1) (val_main_v0 (F := Ideal)) := rfl

/-- The count of cluster `c`: the constant one summed over the rows labelled `c`. -/
theorem counts_apply (c : Fin 64) :
    val_main_v3 (F := Ideal) x1 (ix1 c)
      = ∑ n ∈ Finset.univ.filter (fun n : Fin 2000000 => x1 (ix1 n) = BitVec.ofNat 32 c.val), Ideal.ofBits .f32 0x3F800000#32 := by
  rw [v3_eq, scatter1_apply]
  rw [val_main_v1_apply, val_main_cst_0_apply, Ideal.ofBits_def, Ideal.ofBits_zero_f32, zero_add]
  refine Finset.sum_congr (Finset.filter_congr fun n _ => by rw [val_main_v2_apply, idx_v2]) fun n _ => ?_
  rw [val_main_v0_apply, val_main_cst_apply, Ideal.ofBits_def]

private theorem idx_v5 (n : Fin 2000000) : idx_main_v5 (ix2 n (0 : Fin 1)) = ix1 n := by
  funext a; match a with | ⟨0, _⟩ => rfl

private theorem v6_eq :
    val_main_v6 (F := Ideal) x0 x1
      = Ideal.hostScatterAdd d2 (val_main_v4 (F := Ideal)) (val_main_v5 (F := Ideal) x1) x0 := rfl

/-- The feature sum of cluster `c` at coordinate `d`. -/
theorem sums_apply (c : Fin 64) (d : Fin 16) :
    val_main_v6 (F := Ideal) x0 x1 (ix2 c d)
      = ∑ n ∈ Finset.univ.filter (fun n : Fin 2000000 => x1 (ix1 n) = BitVec.ofNat 32 c.val), x0 (ix2 n d) := by
  rw [v6_eq, scatter2_apply]
  rw [val_main_v4_apply, val_main_cst_1_apply, Ideal.ofBits_def, Ideal.ofBits_zero_f32, zero_add]
  exact Finset.sum_congr (Finset.filter_congr fun n _ => by rw [val_main_v5_apply, idx_v5]) fun n _ => rfl

private theorem idx_v27 (n : Fin 2000000) : idx_main_v27 (ix2 n (0 : Fin 1)) = ix1 n := by
  funext a; match a with | ⟨0, _⟩ => rfl

private theorem v28_eq :
    val_main_v28 (F := Ideal) x0 x1
      = Ideal.hostScatterAdd d1 (val_main_v26 (F := Ideal)) (val_main_v27 (F := Ideal) x1) (val_main_v25 (F := Ideal) x0 x1) := rfl

/-- The hinge sum of cluster `c`. -/
theorem hsums_apply (c : Fin 64) :
    val_main_v28 (F := Ideal) x0 x1 (ix1 c)
      = ∑ n ∈ Finset.univ.filter (fun n : Fin 2000000 => x1 (ix1 n) = BitVec.ofNat 32 c.val),
          val_main_v25 (F := Ideal) x0 x1 (ix1 n) := by
  rw [v28_eq, scatter1_apply]
  rw [val_main_v26_apply, val_main_cst_6_apply, Ideal.ofBits_def, Ideal.ofBits_zero_f32, zero_add]
  exact Finset.sum_congr (Finset.filter_congr fun n _ => by rw [val_main_v27_apply, idx_v27]) fun n _ => rfl

private theorem idx_v15 (n : Fin 2000000) : idx_main_v15 (ix2 n (0 : Fin 1)) = ix1 n := by
  funext a; match a with | ⟨0, _⟩ => rfl

private theorem idx_call0 (n : Fin 2000000) (k : Fin 16) : idx_main_call0_v1 (ix1 n) k = ix2 n k := by
  funext a; match a with | ⟨0, _⟩ => rfl | ⟨1, _⟩ => rfl

/-- The gather's start index of a row labelled `c` is the label itself: the label is not negative, so the wrap of
    negative indices leaves it. -/
private theorem v15_at (n : Fin 2000000) (c : Fin 64) (h : x1 (ix1 n) = BitVec.ofNat 32 c.val) :
    val_main_v15 (F := Ideal) x1 (ix2 n 0) = BitVec.ofNat 32 c.val := by
  rw [val_main_v15_apply, idx_v15, val_main_v14_apply, val_main_v11_apply, val_main_v10_apply, val_main_c_apply, h,
    slt_zero, select_zero]

private theorem v16_eq :
    val_main_v16 (F := Ideal) x0 x1
      = Host.gather g (val_main_v9 (F := Ideal) x0 x1) (val_main_v15 (F := Ideal) x1) := rfl

/-- The centre gathered at a row labelled `c` is row `c` of the table. -/
private theorem v16_at (n : Fin 2000000) (c : Fin 64) (h : x1 (ix1 n) = BitVec.ofNat 32 c.val) (k : Fin 16) :
    val_main_v16 (F := Ideal) x0 x1 (ix2 n k) = val_main_v9 (F := Ideal) x0 x1 (ix2 c k) := by
  rw [v16_eq]
  refine gather_apply _ _ n k c ?_
  have hc := c.isLt
  rw [v15_at x1 n c h, (toInt_eq_iff _ c).2 rfl]
  omega

/-- One coordinate's squared offset difference at a row labelled `c`. -/
private theorem sq_at (n : Fin 2000000) (c : Fin 64) (h : x1 (ix1 n) = BitVec.ofNat 32 c.val) (k : Fin 16) :
    val_main_call0_v0 (F := Ideal) x0 x1 (ix2 n k)
      = (x0 (ix2 n k) - val_main_v9 (F := Ideal) x0 x1 (ix2 c k) + Ideal.ofBits .f32 0x322BCC77#32)
        * (x0 (ix2 n k) - val_main_v9 (F := Ideal) x0 x1 (ix2 c k) + Ideal.ofBits .f32 0x322BCC77#32) := by
  rw [val_main_call0_v0_apply, val_main_v19_apply, val_main_v17_apply, v16_at x0 x1 n c h k, val_main_v18_apply,
    val_main_cst_3_apply]
  rfl

/-- The squared hinge of a row labelled `c`: against row `c` of the centres. -/
theorem hinge_apply (n : Fin 2000000) (c : Fin 64) (h : x1 (ix1 n) = BitVec.ofNat 32 c.val) :
    val_main_v25 (F := Ideal) x0 x1 (ix1 n)
      = h2 (fun e => val_main_v9 (F := Ideal) x0 x1 (ix2 c e)) (fun e => x0 (ix2 n e)) := by
  have hs : val_main_call0_v1 (F := Ideal) x0 x1 (ix1 n)
      = ∑ d : Fin 16, (x0 (ix2 n d) - val_main_v9 (F := Ideal) x0 x1 (ix2 c d) + Ideal.ofBits .f32 0x322BCC77#32)
          * (x0 (ix2 n d) - val_main_v9 (F := Ideal) x0 x1 (ix2 c d) + Ideal.ofBits .f32 0x322BCC77#32) := by
    rw [val_main_call0_v1_apply, val_main_call0_cst_apply, Ideal.ofBits_def, Ideal.ofBits_zero_f32, zero_add]
    exact Finset.sum_congr rfl fun k _ => by rw [idx_call0, sq_at x0 x1 n c h k]
  rw [val_main_v25_apply, val_main_v24_apply, val_main_v22_apply, val_main_v20_apply, hs, val_main_v21_apply,
    val_main_cst_4_apply, val_main_v23_apply, val_main_cst_5_apply, Ideal.ofBits_def, Ideal.ofBits_def,
    Ideal.ofBits_zero_f32]
  rfl

end Cert.ReferenceIdeal.RefReads

end
-- ==== Proof.Alg.lean ====
/-
  The algebra that joins a one-hot product to a sum over a segment, free of either program.

  * A sum over 2 × 125 × 8000 (block j, step s, row t) of a function of n = 8000·(125·j + s) + t is the sum over all
    n < 2000000: the three coordinates are the mixed-radix digits of n.
  * A sum of (one-hot entry of the label at cluster c) · f is the sum of f over the rows whose label word is c: the
    entry is one there and zero elsewhere, and in the extended reals zero times anything is zero.
  * The one-hot row of the word of cluster c picks row c of a table.
-/
import proofs.«420134_j12584254177316_3_alg».proof.Proof.Hinge
import Mathlib.Algebra.BigOperators.Fin
import Mathlib.Algebra.BigOperators.Intervals

noncomputable section

namespace NbrLoss

open Idealize.ShloMosaic Idealize.ShloMosaic.ValueIdx

/-- Two mixed-radix digits: the sum over a < A and b < B of g (B·a + b) is the sum of g over all n < A·B. By induction
    on A: the last block a = A contributes the B values B·A, …, B·A + B − 1, which are exactly the tail of the range
    A·B + B. -/
private theorem sum_range_mul {M : Type*} [AddCommMonoid M] (g : ℕ → M) (A B : ℕ) :
    ∑ a ∈ Finset.range A, ∑ b ∈ Finset.range B, g (B * a + b) = ∑ n ∈ Finset.range (A * B), g n := by
  induction A with
  | zero => rw [Finset.sum_range_zero, Nat.zero_mul, Finset.sum_range_zero]
  | succ A ih =>
    rw [Finset.sum_range_succ, ih, add_one_mul, Finset.sum_range_add, Nat.mul_comm B A]

/-- A sum over Fin n of a function of the value is the sum over range n. -/
private theorem sum_fin_val {M : Type*} [AddCommMonoid M] (g : ℕ → M) (n : ℕ) :
    ∑ i : Fin n, g i.val = ∑ i ∈ Finset.range n, g i :=
  Fin.sum_univ_eq_sum_range g n

/-- The blocked triple sum is the plain sum over the two million rows. -/
theorem sum_blocks {M : Type*} [AddCommMonoid M] (f : ℕ → M) :
    ∑ j : Fin 2, ∑ s ∈ Finset.range 125, ∑ t : Fin 8000, f (8000 * (125 * j.val + s) + t.val)
      = ∑ n : Fin 2000000, f n.val := by
  -- the product of the three radices
  have e : 2 * 125 * 8000 = 2000000 := by norm_num
  calc ∑ j : Fin 2, ∑ s ∈ Finset.range 125, ∑ t : Fin 8000, f (8000 * (125 * j.val + s) + t.val)
      -- both sums over Fin become sums over ranges
      = ∑ j ∈ Finset.range 2, ∑ s ∈ Finset.range 125, ∑ t ∈ Finset.range 8000, f (8000 * (125 * j + s) + t) := by
        rw [← sum_fin_val (fun j => ∑ s ∈ Finset.range 125, ∑ t ∈ Finset.range 8000, f (8000 * (125 * j + s) + t)) 2]
        refine Finset.sum_congr rfl (fun j _ => Finset.sum_congr rfl (fun s _ => ?_))
        exact sum_fin_val (fun t => f (8000 * (125 * j.val + s) + t)) 8000
    -- the digits j, s join to m = 125·j + s < 250
    _ = ∑ m ∈ Finset.range (2 * 125), ∑ t ∈ Finset.range 8000, f (8000 * m + t) :=
        sum_range_mul (fun m => ∑ t ∈ Finset.range 8000, f (8000 * m + t)) 2 125
    -- the digits m, t join to n = 8000·m + t < 2000000
    _ = ∑ n ∈ Finset.range (2 * 125 * 8000), f n := sum_range_mul f (2 * 125) 8000
    _ = ∑ n : Fin 2000000, f n.val := by rw [e, sum_fin_val f 2000000]

/-- A one-hot weighted sum is the sum over the segment. -/
theorem sum_oh_mul {ι : Type*} [Fintype ι] (w : ι → BitVec 32) (c : Fin 64) (f : ι → EReal) :
    ∑ i, oh (w i) c * f i = ∑ i ∈ Finset.univ.filter (fun i => w i = BitVec.ofNat 32 c.val), f i := by
  -- the sum over the filtered set is the sum of (f where the label is c, zero elsewhere); compare term by term
  rw [Finset.sum_filter]
  refine Finset.sum_congr rfl (fun i _ => ?_)
  unfold oh
  split_ifs with hi
  · exact one_mul (f i)
  · exact zero_mul (f i)

/-- The one-hot row of cluster `c`'s word picks row `c`. -/
theorem pick_eq (mu : (⟨2, ![64, 16]⟩ : Shape).Idx → EReal) (w : BitVec 32) (c : Fin 64)
    (h : w = BitVec.ofNat 32 c.val) (e : Fin 16) : pick mu w e = mu (ix2 c e) := by
  unfold pick
  rw [Finset.sum_eq_single c]
  · -- the term at c: the entry is one
    unfold oh
    rw [if_pos h, one_mul]
  · -- a term at c' ≠ c: the words of c' and c differ, both numbers being below 2^32, so the entry is zero
    intro c' _ hne
    unfold oh
    rw [if_neg, zero_mul]
    intro hw
    apply hne
    have hv : (BitVec.ofNat 32 c'.val).toNat = (BitVec.ofNat 32 c.val).toNat :=
      congrArg BitVec.toNat (hw.symm.trans h)
    rw [BitVec.toNat_ofNat, BitVec.toNat_ofNat] at hv
    have hc := c.isLt
    have hc' := c'.isLt
    rw [Nat.mod_eq_of_lt (by omega), Nat.mod_eq_of_lt (by omega)] at hv
    exact Fin.ext hv
  · intro hc
    exact absurd (Finset.mem_univ c) hc

end NbrLoss

end
-- ==== Proof.Bridge.lean ====
/-
  The kernel's centres, counts and hinge sums are the reference's.

  Per cluster c and coordinate d the kernel's summed blocks hold the sum, over the two cores' blocks, the 125 steps of a
  core and the 8000 rows of a tile, of (label of row n is c) · (coordinate d of row n, or one): the digits (core, step, row)
  run over all two million rows once, and a one-hot weighted sum is the sum over the rows whose label is c — which is
  what the reference's segment sum holds (its scatter drops a label outside the sixty-four clusters, the one-hot entry of
  such a label is zero everywhere). So the centres agree, and the counts. The kernel's hinge sums weigh each row's squared
  hinge by the same one-hot entry; on a row labelled c the centre its one-hot row picks is row c of the centres, the
  centre the reference gathers; on any other row the weight is zero. So the hinge sums agree; the rest of both programs
  is the same host arithmetic on these three arrays.
-/
import proofs.«420134_j12584254177316_3_alg».proof.Proof.KernHost
import proofs.«420134_j12584254177316_3_alg».proof.Proof.Region0
import proofs.«420134_j12584254177316_3_alg».proof.Proof.Region1
import proofs.«420134_j12584254177316_3_alg».proof.Proof.RefReads
import proofs.«420134_j12584254177316_3_alg».proof.Proof.Alg
import proofs.«420134_j12584254177316_3_alg».proof.Proof.Hinge
import Idealize.ShloMosaic.Lib.StableHlo.Run
import Idealize.ShloMosaic.Lib.Pipeline.Value
import Idealize.ShloMosaic.PureOps.Ideal.Laws
import Idealize.ShloMosaic.Lib.ValueIdx

set_option maxRecDepth 16384

noncomputable section

namespace Cert.Bridge

open Idealize.ShloMosaic Idealize.ShloMosaic.TcCoe Idealize.SL.Sem Idealize.ShloMosaic.StableHlo
open Idealize.ShloMosaic.ValueIdx NbrLoss
open Cert.KernelIdeal Cert.KernelIdeal.Gen

variable (m : (ℓ : Loc nD τ sig) → Buf (Elt Ideal) ℓ) (ρ : Dev nD → PrngReg)

/-- The feature argument, typed as the reference reads it. -/
abbrev X (c : Dev nD) : (⟨Cert.ReferenceIdeal.S2000000x16, .f32⟩ : BufTy).Contents (Elt Ideal) :=
  m ((c : Thread nD τ).loc main_arg0)
/-- The label argument, typed as the reference reads it. -/
abbrev Lw (c : Dev nD) : (⟨Cert.ReferenceIdeal.S2000000, .i32⟩ : BufTy).Contents (Elt Ideal) :=
  m ((c : Thread nD τ).loc main_arg1)

/-- Row `n` of the reshaped label column is entry `n` of the labels. -/
theorem lab_row (c : Dev nD) (n : Fin 2000000) :
    labAt (shapeCast S2000000x1 (m ((c : Thread nD τ).loc main_arg1)) shapeCasts_S2000000_S2000000x1) n.val = Lw m c (ix1 n) := by
  unfold labAt
  rw [dif_pos n.isLt]
  refine (shapeCast_apply _ shapeCasts_S2000000_S2000000x1 _ (ix1 n) ?_).trans rfl
  rw [Shape.rowMajor_val_one, Shape.rowMajor_val_two]
  show n.val = n.val * 1 + 0
  omega

/-- Coordinate `e` of row `n` of the feature argument. -/
theorem feat_row (c : Dev nD) (n : Fin 2000000) :
    featAt (m ((c : Thread nD τ).loc main_arg0)) n.val = fun e => X m c (ix2 n e) := by
  funext e
  unfold featAt
  rw [dif_pos n.isLt]

/-- The summed blocks at cluster `cl`, column `d`: the extended feature rows summed over the rows labelled `cl`. -/
theorem sc_apply (c : Dev nD) (cl : Fin 64) (d : Fin 17) :
    KH.sc m ρ c (ix2 cl d)
      = ∑ n ∈ Finset.univ.filter (fun n : Fin 2000000 => Lw m c (ix1 n) = BitVec.ofNat 32 cl.val),
          fe (fun e => X m c (ix2 n e)) d := by
  unfold KH.sc
  simp only [Host.reduceAdd, Ideal.hostReduceAdd_def]
  have hR : S2x64x17.Reduces [0] S64x17 := by decide
  rw [Ideal.hostReduceAdd_single reducesTo_S2x64x17_S64x17_d0 hR]
  have hl : ∀ k : Fin 2, hR.lift (ix2 cl d) k = ix3 k cl d := fun k =>
    funext fun a => Fin.ext (by match a with | ⟨0, _⟩ => rfl | ⟨1, _⟩ => rfl | ⟨2, _⟩ => rfl)
  show _ + ∑ k : Fin 2, KH.A1 m ρ c (hR.lift (ix2 cl d) k) = _
  rw [Finset.sum_congr rfl (fun k _ => congrArg (KH.A1 m ρ c) (hl k))]
  rw [show constant (F := Ideal) S_ .f32 0x00000000#32 (Shape.Idx.first h_S_) = Ideal.ofBits .f32 0x00000000#32 from rfl,
    Ideal.ofBits_zero_f32, zero_add]
  simp only [KH.A1, Cert.KernelIdeal.Reg0.arr0_apply]
  rw [KH.V1_v0, KH.V1_arg0]
  rw [sum_blocks (fun n => oh (labAt (shapeCast S2000000x1 (m ((c : Thread nD τ).loc main_arg1)) shapeCasts_S2000000_S2000000x1) n) cl
        * fe (featAt (m ((c : Thread nD τ).loc main_arg0)) n) d)]
  simp only [lab_row, feat_row]
  exact sum_oh_mul (fun n : Fin 2000000 => Lw m c (ix1 n)) cl (fun n => fe (fun e => X m c (ix2 n e)) d)

open Cert.ReferenceIdeal.Read Cert.ReferenceIdeal.RefReads in
/-- The kernel's centres are the reference's. -/
theorem mu_eq (c : Dev nD) : KH.mu m ρ c = val_main_v9 (F := Ideal) (X m c) (Lw m c) := by
  funext i
  obtain ⟨cl, d, rfl⟩ : ∃ (cl : Fin 64) (d : Fin 16), i = ix2 cl d := ⟨i 0, i 1, eq_ix2 i⟩
  rw [val_main_v9_apply, val_main_v8_apply, val_main_v7_apply]
  have hc : idx_main_v7 (idx_main_v8 (ix2 cl d)) = ix1 cl := funext fun a => Fin.ext (by match a with | ⟨0, _⟩ => rfl)
  rw [hc, sums_apply, counts_apply]
  have s16 : extractStridedSlice S64x16 ![0, 0] (KH.sc m ρ c) slices_S64x17_S64x16_0_0 (ix2 cl d)
      = KH.sc m ρ c (ix2 cl ⟨d.val, by omega⟩) :=
    extractStridedSlice_apply _ _ _ _ _ (fun a => by
      match a with
      | ⟨0, _⟩ => show cl.val = 0 + cl.val; omega
      | ⟨1, _⟩ => show d.val = 0 + d.val; omega)
  have s1 : extractStridedSlice S64x1 ![0, 16] (KH.sc m ρ c) slices_S64x17_S64x1_0_16 (ix2 cl 0)
      = KH.sc m ρ c (ix2 cl ⟨16, by omega⟩) :=
    extractStridedSlice_apply _ _ _ _ _ (fun a => by
      match a with
      | ⟨0, _⟩ => show cl.val = 0 + cl.val; omega
      | ⟨1, _⟩ => show 16 = 16 + 0; omega)
  have bc : broadcastInDim S64x16 ![0, 1] bcast_S64x1_S64x16_0_1 (KH.cnt m ρ c) (ix2 cl d) = KH.cnt m ρ c (ix2 cl 0) :=
    broadcastInDim_apply _ _ _ _ _ (fun a => by
      match a with
      | ⟨0, _⟩ => show cl.val = if (64 : Nat) = 1 then 0 else cl.val; rw [if_neg (by decide)]
      | ⟨1, _⟩ => show 0 = if (1 : Nat) = 1 then 0 else d.val; rw [if_pos rfl])
  unfold KH.mu
  show FloatOps.hostDivf _ _ = _
  rw [s16, bc]
  unfold KH.cnt
  rw [s1, sc_apply, sc_apply]
  have e1 : ∀ n : Fin 2000000, fe (fun e => X m c (ix2 n e)) ⟨d.val, by omega⟩ = X m c (ix2 n d) := fun n => by
    unfold fe; rw [dif_pos (show (⟨d.val, by omega⟩ : Fin 17).val < 16 from d.isLt)]
  have e2 : ∀ n : Fin 2000000, fe (fun e => X m c (ix2 n e)) ⟨16, by omega⟩ = Ideal.ofBits .f32 0x3F800000#32 := fun n => by
    unfold fe; rw [dif_neg (by decide)]
  simp only [e1, e2]

open Cert.ReferenceIdeal.Read Cert.ReferenceIdeal.RefReads in
/-- The kernel's counts, reshaped to a vector, are the reference's. -/
theorem cnt_eq (c : Dev nD) :
    shapeCast S64 (KH.cnt m ρ c) shapeCasts_S64x1_S64 = val_main_v3 (F := Ideal) (Lw m c) := by
  funext i
  obtain ⟨cl, rfl⟩ : ∃ cl : Fin 64, i = ix1 cl := ⟨i 0, eq_ix1 i⟩
  rw [counts_apply]
  refine (shapeCast_apply _ shapeCasts_S64x1_S64 (ix1 cl) (ix2 cl 0) ?_).trans ?_
  · rw [Shape.rowMajor_val_one, Shape.rowMajor_val_two]
    show cl.val * 1 + 0 = cl.val
    omega
  have s1 : extractStridedSlice S64x1 ![0, 16] (KH.sc m ρ c) slices_S64x17_S64x1_0_16 (ix2 cl 0)
      = KH.sc m ρ c (ix2 cl ⟨16, by omega⟩) :=
    extractStridedSlice_apply _ _ _ _ _ (fun a => by
      match a with
      | ⟨0, _⟩ => show cl.val = 0 + cl.val; omega
      | ⟨1, _⟩ => show 16 = 16 + 0; omega)
  unfold KH.cnt
  rw [s1, sc_apply]
  have e2 : ∀ n : Fin 2000000, fe (fun e => X m c (ix2 n e)) ⟨16, by omega⟩ = Ideal.ofBits .f32 0x3F800000#32 := fun n => by
    unfold fe; rw [dif_neg (by decide)]
  simp only [e2]

open Cert.ReferenceIdeal.Read Cert.ReferenceIdeal.RefReads in
/-- The kernel's hinge sums — the two cores' blocks summed and reshaped to a vector — are the reference's. -/
theorem hs_eq (c : Dev nD) :
    shapeCast S64 (Host.reduceAdd (KH.A7 m ρ c) (constant S_ .f32 0x00000000#32) reducesTo_S2x64x1_S64x1_d0 h_S_) shapeCasts_S64x1_S64
      = val_main_v28 (F := Ideal) (X m c) (Lw m c) := by
  funext i
  obtain ⟨cl, rfl⟩ : ∃ cl : Fin 64, i = ix1 cl := ⟨i 0, eq_ix1 i⟩
  rw [hsums_apply]
  refine (shapeCast_apply _ shapeCasts_S64x1_S64 (ix1 cl) (ix2 cl 0) ?_).trans ?_
  · rw [Shape.rowMajor_val_one, Shape.rowMajor_val_two]
    show cl.val * 1 + 0 = cl.val
    omega
  simp only [Host.reduceAdd, Ideal.hostReduceAdd_def]
  have hR : S2x64x1.Reduces [0] S64x1 := by decide
  rw [Ideal.hostReduceAdd_single reducesTo_S2x64x1_S64x1_d0 hR]
  have hl : ∀ k : Fin 2, hR.lift (ix2 cl 0) k = ix3 k cl 0 := fun k =>
    funext fun a => Fin.ext (by match a with | ⟨0, _⟩ => rfl | ⟨1, _⟩ => rfl | ⟨2, _⟩ => rfl)
  show _ + ∑ k : Fin 2, KH.A7 m ρ c (hR.lift (ix2 cl 0) k) = _
  rw [Finset.sum_congr rfl (fun k _ => congrArg (KH.A7 m ρ c) (hl k))]
  rw [show constant (F := Ideal) S_ .f32 0x00000000#32 (Shape.Idx.first h_S_) = Ideal.ofBits .f32 0x00000000#32 from rfl,
    Ideal.ofBits_zero_f32, zero_add]
  simp only [KH.A7, Cert.KernelIdeal.Reg1.arr1_apply]
  rw [KH.V3_v0, KH.V1_v0, KH.V3_arg0, KH.V3_v6, mu_eq]
  rw [sum_blocks (fun n => oh (labAt (shapeCast S2000000x1 (m ((c : Thread nD τ).loc main_arg1)) shapeCasts_S2000000_S2000000x1) n) cl
        * h2 (pick (val_main_v9 (F := Ideal) (X m c) (Lw m c))
                (labAt (shapeCast S2000000x1 (m ((c : Thread nD τ).loc main_arg1)) shapeCasts_S2000000_S2000000x1) n))
             (featAt (m ((c : Thread nD τ).loc main_arg0)) n))]
  simp only [lab_row, feat_row]
  rw [sum_oh_mul (fun n : Fin 2000000 => Lw m c (ix1 n)) cl
    (fun n => h2 (pick (val_main_v9 (F := Ideal) (X m c) (Lw m c)) (Lw m c (ix1 n))) (fun e => X m c (ix2 n e)))]
  refine Finset.sum_congr rfl fun n hn => ?_
  have hlab : Lw m c (ix1 n) = BitVec.ofNat 32 cl.val := (Finset.mem_filter.mp hn).2
  rw [hinge_apply (X m c) (Lw m c) n cl hlab]
  exact congrArg (fun mu => h2 mu (fun e => X m c (ix2 n e)))
    (funext fun e => pick_eq (val_main_v9 (F := Ideal) (X m c) (Lw m c)) _ cl hlab e)

open Cert.ReferenceIdeal.Read in
set_option maxHeartbeats 8000000 in
/-- The kernel's result is the reference's: both apply the same host arithmetic to the centres, the counts and the hinge
    sums, which agree. -/
theorem final (c : Dev nD) :
    W9 m ρ c (Proc.devRef .tc main_v47) = val_main_v65 (F := Ideal) (X m c) (Lw m c) := by
  symm
  unfold val_main_v65 val_main_v64 val_main_v63 val_main_cst_21 val_main_v62 val_main_cst_20 val_main_v61 val_main_cst_19 val_main_v60 val_main_cst_18 val_main_v59 val_main_cst_17 val_main_v58 val_main_call2_v1 val_main_call2_cst val_main_call2_v0 val_main_v57 val_main_v56 val_main_cst_16 val_main_v55 val_main_cst_15 val_main_v54 val_main_cst_14 val_main_v53 val_main_v52 val_main_v51 val_main_cst_13 val_main_v50 val_main_v49 val_main_v48 val_main_v47 val_main_c_12 val_main_v46 val_main_v45 val_main_v44 val_main_v43 val_main_v42 val_main_cst_11 val_main_v41 val_main_v40 val_main_cst_10 val_main_v39 val_main_call1_v1 val_main_call1_cst val_main_call1_v0 val_main_v38 val_main_v37 val_main_cst_9 val_main_v36 val_main_v35 val_main_v34 val_main_v33 val_main_v32 val_main_v31 val_main_cst_8 val_main_v30 val_main_cst_7 val_main_v29
  rw [← mu_eq m ρ c, ← hs_eq m ρ c, ← cnt_eq m ρ c]
  symm
  show StableHlo.after hostOps2_4 (StableHlo.after hostOps2_3 (StableHlo.after hostOps2_2 (StableHlo.after hostOps2_1
    (StableHlo.after hostOps2 (W4 m ρ c))))) (Proc.devRef .tc main_v47) = _
  after_results
  rw [KH.W4_v6, KH.W4_v4, KH.W4_v7]
  rfl

end Cert.Bridge

end
-- ==== Proof.lean ====
/-
  The certificate of the clustering loss: a two-call kernel against jnp's segment sums.

  The loss of N = 2,000,000 points x in sixteen dimensions with labels in sixty-four clusters is the mean over the
  clusters of the mean squared hinge max(‖x − μ_c + ε‖ − ½, 0)² of the cluster's points against its centre μ_c (the
  feature sum of the cluster over its count), plus a pairwise term and a norm term that are functions of the centres
  alone. The reference computes counts, feature sums and hinge sums as segment sums over the labels and gathers each
  point's centre by its label. The kernel computes the same three families of sums as products with the one-hot matrix of
  the labels, tile by tile of 8000 rows, each of the chip's two cores accumulating its half of the tiles into its own
  block, the blocks summed afterwards; a point's centre is the product of its one-hot row with the table of centres.

  Over the extended reals the two agree for every label array and every feature array: a one-hot entry is one or zero,
  one times x is x and zero times x is zero whatever x is, addition is associative and commutative, and the digits
  (core, step, row) run over the points once. A label outside the sixty-four clusters has an all-zero one-hot row, so
  the point counts nowhere in the kernel — and the reference's scatter drops it. Neither the precondition nor any
  finiteness is used.

  The three frames are the generated ones (the reference's is its generated run with the result dropped); the kernel's
  idealization rewrote nothing. For the value, the launch theorem is called again with the result buffer in the post
  (FrameValue), the buffers are read back through the host stretches and the two calls (KernHost, Region0, Region1 over
  Payload), the reference's scatters and gather are read at an entry (RefReads), and Bridge joins the two by the algebra
  of Alg.
-/
import proofs.«420134_j12584254177316_3_alg».proof.Defs
import proofs.«420134_j12584254177316_3_alg».proof.Proof.Gen.Kernel
import proofs.«420134_j12584254177316_3_alg».proof.Proof.Gen.Kernel.Skeleton
import proofs.«420134_j12584254177316_3_alg».proof.Proof.Gen.Kernel.Launch
import proofs.«420134_j12584254177316_3_alg».proof.Proof.Gen.Kernel.Points
import proofs.«420134_j12584254177316_3_alg».proof.Proof.Gen.Kernel.Frame
import proofs.«420134_j12584254177316_3_alg».proof.Proof.Gen.KernelIdeal
import proofs.«420134_j12584254177316_3_alg».proof.Proof.Gen.KernelIdeal.Skeleton
import proofs.«420134_j12584254177316_3_alg».proof.Proof.Gen.KernelIdeal.Launch
import proofs.«420134_j12584254177316_3_alg».proof.Proof.Gen.KernelIdeal.Points
import proofs.«420134_j12584254177316_3_alg».proof.Proof.Gen.KernelIdeal.Frame
import proofs.«420134_j12584254177316_3_alg».proof.Proof.Gen.ReferenceIdeal
import proofs.«420134_j12584254177316_3_alg».proof.Proof.Gen.Pre_finite_inputs
import proofs.«420134_j12584254177316_3_alg».proof.Proof.Gen.ReferenceIdeal.Run
import proofs.«420134_j12584254177316_3_alg».proof.Proof.Gen.ReferenceIdeal.Read
import proofs.«420134_j12584254177316_3_alg».proof.Proof.FrameValue
import proofs.«420134_j12584254177316_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference runs and leaves its arguments alone: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories that agree on the arguments, both programs end with the same loss: the kernel's
    result buffer ends at the last boundary's contents, which is the reference's last stage of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v47),
    Cert.KernelIdeal.GenV.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2]
  exact (Cert.Bridge.final m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
